-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128 : Shape := ⟨2, ![8, 128]⟩
abbrev S8x128x128 : Shape := ⟨3, ![8, 128, 128]⟩
abbrev S16x128 : Shape := ⟨2, ![16, 128]⟩
abbrev S5x128 : Shape := ⟨2, ![5, 128]⟩
abbrev S768x384 : Shape := ⟨2, ![768, 384]⟩
abbrev S768 : Shape := ⟨1, ![768]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S8x128x128 : S_.BroadcastsInDim S8x128x128 (![] : Fin 0 → Fin S8x128x128.rank)
  reducesTo_S8x128x128_S_d0_1_2 : S8x128x128.ReducesTo [0, 1, 2] S_

variable [Facts]

def fn_part1 {F : FTy → Type} [FloatOps F] (main_arg1 : IVec S8x128x128 32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_c_6 : IVec S_ 32 := constantI S_ 32 0#32
  let main_v19 : IVec S8x128x128 32 := broadcastInDim S8x128x128 ![] bcast_S_S8x128x128 main_c_6
  let main_v20 : IVec S8x128x128 1 := cmpi .sge main_arg1 main_v19
  let main_c_7 : IVec S_ 32 := constantI S_ 32 5#32
  let main_v21 : IVec S8x128x128 32 := broadcastInDim S8x128x128 ![] bcast_S_S8x128x128 main_c_7
  let main_v22 : IVec S8x128x128 1 := cmpi .slt main_arg1 main_v21
  let main_v23 : IVec S8x128x128 1 := andi main_v20 main_v22
  let main_c_8 : IVec S_ 1 := constantI S_ 1 1#1
  let main_v24 : IVec S_ 1 := (fun x v => Host.reduce IntOp.andi x v reducesTo_S8x128x128_S_d0_1_2 h_S_) main_v23 main_c_8
  let main_v25 : IVec S_ 1 := andi main_v18 main_v24
  main_v25

def fn {F : FTy → Type} [FloatOps F] (main_arg0 : IVec S8x128 32) (main_arg1 : IVec S8x128x128 32) (main_arg2 : FVec F S16x128 .f32) (main_arg3 : FVec F S5x128 .f32) (main_arg4 : FVec F S768x384 .f32) (main_arg5 : FVec F S768 .f32) : IVec S_ 1 :=
  let main_v0 : FVec F S16x128 .f32 := Host.absf main_arg2
  let main_cst : FVec F S_ .f32 := constant S_ .f32 0x7F800000#32
  let main_v1 : FVec F S16x128 .f32 := broadcastInDim S16x128 ![] bcast_S_S16x128 main_cst
  let main_v2 : IVec S16x128 1 := cmpf .olt main_v0 main_v1
  let main_c : IVec S_ 1 := constantI S_ 1 1#1
  let main_v3 : IVec S_ 1 := (fun x v => Host.reduce IntOp.andi x v reducesTo_S16x128_S_d0_1 h_S_) main_v2 main_c
  let main_v4 : FVec F S5x128 .f32 := Host.absf main_arg3
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S768x384 .f32 := Host.absf main_arg4
  let main_cst_2 : FVec F S_ .f32 := constant S_ .f32 0x7F800000#32
  let main_v10 : FVec F S768x384 .f32 := broadcastInDim S768x384 ![] bcast_S_S768x384 main_cst_2
  let main_v11 : IVec S768x384 1 := cmpf .olt main_v9 main_v10
  let main_c_3 : IVec S_ 1 := constantI S_ 1 1#1
  let main_v12 : IVec S_ 1 := (fun x v => Host.reduce IntOp.andi x v reducesTo_S768x384_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg1 main_v13 main_v16
-- ==== Kernel.lean ====
abbrev S8x128 : Shape := ⟨2, ![8, 128]⟩
abbrev S8x128x128 : Shape := ⟨3, ![8, 128, 128]⟩
abbrev S16x128 : Shape := ⟨2, ![16, 128]⟩
abbrev S5x128 : Shape := ⟨2, ![5, 128]⟩
abbrev S768x384 : Shape := ⟨2, ![768, 384]⟩
abbrev S768 : Shape := ⟨1, ![768]⟩
abbrev S_ : Shape := ⟨0, ![]⟩
abbrev S8x128x1 : Shape := ⟨3, ![8, 128, 1]⟩
abbrev S384x768 : Shape := ⟨2, ![384, 768]⟩
abbrev S256x768 : Shape := ⟨2, ![256, 768]⟩
abbrev S128x768 : Shape := ⟨2, ![128, 768]⟩
abbrev S5x768 : Shape := ⟨2, ![5, 768]⟩
abbrev S8x768 : Shape := ⟨2, ![8, 768]⟩
abbrev S1 : Shape := ⟨1, ![1]⟩
abbrev S1x768 : Shape := ⟨2, ![1, 768]⟩
abbrev S8x128x128x768 : Shape := ⟨4, ![8, 128, 128, 768]⟩
abbrev S1x128x128 : Shape := ⟨3, ![1, 128, 128]⟩
abbrev S1x32x128 : Shape := ⟨3, ![1, 32, 128]⟩
abbrev S1x32x128x768 : Shape := ⟨4, ![1, 32, 128, 768]⟩
abbrev S32x128x8 : Shape := ⟨3, ![32, 128, 8]⟩
abbrev S32x128 : Shape := ⟨2, ![32, 128]⟩
abbrev S32x768 : Shape := ⟨2, ![32, 768]⟩
abbrev S32x128x1 : Shape := ⟨3, ![32, 128, 1]⟩
abbrev S1x1x768 : Shape := ⟨3, ![1, 1, 768]⟩
abbrev S32x32x8 : Shape := ⟨3, ![32, 32, 8]⟩
abbrev S32x32x1 : Shape := ⟨3, ![32, 32, 1]⟩
abbrev S1024x8 : Shape := ⟨2, ![1024, 8]⟩
abbrev S1024x768 : Shape := ⟨2, ![1024, 768]⟩
abbrev S32x32x768 : Shape := ⟨3, ![32, 32, 768]⟩
abbrev S1x32x768 : Shape := ⟨3, ![1, 32, 768]⟩
abbrev S32x1x768 : Shape := ⟨3, ![32, 1, 768]⟩
abbrev S1x32x32x768 : Shape := ⟨4, ![1, 32, 32, 768]⟩

abbrev nBuf : Space → Nat
  | .hbm => 29
  | .vmem => 10
  | .smem => 0
  | _ => 0

abbrev bufTy : (tb : Table) → Fin (tcTables nBuf tb) → BufTy
  | .hbm, ⟨0, _⟩ => ⟨S8x128, .i32⟩
  | .hbm, ⟨1, _⟩ => ⟨S8x128x128, .i32⟩
  | .hbm, ⟨2, _⟩ => ⟨S16x128, .f32⟩
  | .hbm, ⟨3, _⟩ => ⟨S5x128, .f32⟩
  | .hbm, ⟨4, _⟩ => ⟨S768x384, .f32⟩
  | .hbm, ⟨5, _⟩ => ⟨S768, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x128, .f32⟩
  | .hbm, ⟨15, _⟩ => ⟨S8x128x128, .bf16⟩
  | .hbm, ⟨16, _⟩ => ⟨S384x768, .f32⟩
  | .hbm, ⟨17, _⟩ => ⟨S384x768, .bf16⟩
  | .hbm, ⟨18, _⟩ => ⟨S256x768, .bf16⟩
  | .hbm, ⟨19, _⟩ => ⟨S128x768, .bf16⟩
  | .hbm, ⟨20, _⟩ => ⟨S5x128, .bf16⟩
  | .hbm, ⟨21, _⟩ => ⟨S5x768, .f32⟩
  | .hbm, ⟨22, _⟩ => ⟨S_, .f32⟩
  | .hbm, ⟨23, _⟩ => ⟨S8x768, .f32⟩
  | .hbm, ⟨24, _⟩ => ⟨S_, .i32⟩
  | .hbm, ⟨25, _⟩ => ⟨S1, .i32⟩
  | .hbm, ⟨26, _⟩ => ⟨S8x768, .f32⟩
  | .hbm, ⟨27, _⟩ => ⟨S1x768, .f32⟩
  | .hbm, ⟨28, _⟩ => ⟨S8x128x128x768, .f32⟩
  | .local _ .vmem, ⟨0, _⟩ => ⟨S1x128x128, .bf16⟩
  | .local _ .vmem, ⟨1, _⟩ => ⟨S1x128x128, .bf16⟩
  | .local _ .vmem, ⟨2, _⟩ => ⟨S1x32x128, .i32⟩
  | .local _ .vmem, ⟨3, _⟩ => ⟨S1x32x128, .i32⟩
  | .local _ .vmem, ⟨4, _⟩ => ⟨S8x768, .f32⟩
  | .local _ .vmem, ⟨5, _⟩ => ⟨S256x768, .bf16⟩
  | .local _ .vmem, ⟨6, _⟩ => ⟨S1x768, .f32⟩
  | .local _ .vmem, ⟨7, _⟩ => ⟨S1x32x128x768, .f32⟩
  | .local _ .vmem, ⟨8, _⟩ => ⟨S1x32x128x768, .f32⟩
  | .local _ .vmem, ⟨9, _⟩ => ⟨S32x128x8, .f32⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 3 → Nat :=
  let c0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_0 : Index := 0#32
  ![0, v2.toNat, 0]
@[reducible] def k0_t1_loop : Scf.Loop 32 :=
  let c0_i32_15 : BitVec 32 := 0#32
  let c4_i32_16 : BitVec 32 := 4#32
  let v35 : BitVec 32 := Scalar.addi c0_i32_15 c4_i32_16
  let c1_i32 : BitVec 32 := 1#32
  ⟨c0_i32_15, v35, c1_i32⟩
def k0_mult2 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c32_i32_18 : BitVec 32 := 32#32
  let v36 : BitVec 32 := Scalar.muli arg9 c32_i32_18
  v36
def k0_off2 (k0_t1 : Fin k0_t1_loop.trips) : Fin 3 → Nat :=
  let c0_19 : Index := 0#32
  let c0_i32_15 : BitVec 32 := 0#32
  let c1_i32 : BitVec 32 := 1#32
  let arg9 : BitVec 32 := Scf.iv c0_i32_15 c1_i32 k0_t1
  let c32_i32_18 : BitVec 32 := 32#32
  let v36 : BitVec 32 := Scalar.muli arg9 c32_i32_18
  let v37 : BitVec 32 := v36
  let v38 : Index := Scalar.indexCast v37
  let c0_20 : Index := 0#32
  ![0, v38.toNat, 0]
def k0_off3 (k0_t1 : Fin k0_t1_loop.trips) : Fin 3 → Nat :=
  let c0_21 : Index := 0#32
  let c0_i32_15 : BitVec 32 := 0#32
  let c1_i32 : BitVec 32 := 1#32
  let arg9 : BitVec 32 := Scf.iv c0_i32_15 c1_i32 k0_t1
  let c32_i32_18 : BitVec 32 := 32#32
  let v36 : BitVec 32 := Scalar.muli arg9 c32_i32_18
  let v37 : BitVec 32 := v36
  let v40 : Index := Scalar.indexCast v37
  let c0_22 : Index := 0#32
  ![0, v40.toNat, 0]
def k0_off4 (k0_t1 : Fin k0_t1_loop.trips) : Fin 4 → Nat :=
  let c0_26 : Index := 0#32
  let c0_27 : Index := 0#32
  let c0_i32_15 : BitVec 32 := 0#32
  let c1_i32 : BitVec 32 := 1#32
  let arg9 : BitVec 32 := Scf.iv c0_i32_15 c1_i32 k0_t1
  let c32_i32_18 : BitVec 32 := 32#32
  let v36 : BitVec 32 := Scalar.muli arg9 c32_i32_18
  let v37 : BitVec 32 := v36
  let v60 : Index := Scalar.indexCast v37
  let c0_28 : Index := 0#32
  ![0, 0, v60.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bitsLt_bf16_f32 : FTy.bits .bf16 < FTy.bits .f32
  transposes_S768x384_S384x768_1_0 : S768x384.Transposes [1, 0] S384x768
  slices_S384x768_S256x768_0_0 : S384x768.Slices ![0, 0] S256x768
  slices_S384x768_S128x768_256_0 : S384x768.Slices ![256, 0] S128x768
  bcast_S_S8x768 : S_.BroadcastsInDim S8x768 (![] : Fin 0 → Fin S8x768.rank)
  bcast_S_S1 : S_.BroadcastsInDim S1 (![] : Fin 0 → Fin S1.rank)
  shapeCasts_S768_S1x768 : S768.ShapeCasts S1x768
  h_S1x32x128 : 0 < S1x32x128.numel
  shapeCasts_S1x32x128_S32x128 : S1x32x128.ShapeCasts S32x128
  inb_S256x768_S128x768_0_0 : ∀ a, (![0, 0] : Fin 2 → Nat) a + S128x768.size a ≤ S256x768.size a
  h_S128x768 : 0 < S128x768.numel
  shapeCasts_S128x768_S128x768 : S128x768.ShapeCasts S128x768
  inb_S256x768_S128x768_128_0 : ∀ a, (![128, 0] : Fin 2 → Nat) a + S128x768.size a ≤ S256x768.size a
  inb_S1x32x128_S1x32x128_0_0_0 : ∀ a, (![0, 0, 0] : Fin 3 → Nat) a + S1x32x128.size a ≤ S1x32x128.size a
  iota_S32x128x8_d2_w32 : S32x128x8.Iotas .tc 32 [2]
  shapeCasts_S32x128_S32x128x1 : S32x128.ShapeCasts S32x128x1
  broadcasts_S32x128x1_S32x128x8 : S32x128x1.Broadcasts S32x128x8
  natLt_1_32 : 1 < 32
  inb_S32x128x8_S32x128x8_0_0_0 : ∀ a, (![0, 0, 0] : Fin 3 → Nat) a + S32x128x8.size a ≤ S32x128x8.size a
  h_S32x128x8 : 0 < S32x128x8.numel
  shapeCasts_S32x128x8_S32x128x8 : S32x128x8.ShapeCasts S32x128x8
  inb_S1x768_S1x768_0_0 : ∀ a, (![0, 0] : Fin 2 → Nat) a + S1x768.size a ≤ S1x768.size a
  h_S1x768 : 0 < S1x768.numel
  shapeCasts_S1x768_S1x768 : S1x768.ShapeCasts S1x768
  shapeCasts_S1x768_S1x1x768 : S1x768.ShapeCasts S1x1x768
  inb_S8x768_S8x768_0_0 : ∀ a, (![0, 0] : Fin 2 → Nat) a + S8x768.size a ≤ S8x768.size a
  h_S8x768 : 0 < S8x768.numel
  shapeCasts_S8x768_S8x768 : S8x768.ShapeCasts S8x768
  h_S32x32x8 : 0 < S32x32x8.numel
  slices_S32x32x8_o0_0_0_S32x32x1 : S32x32x8.Slices ![0, 0, 0] S32x32x1
  shapeCasts_S32x32x8_S1024x8 : S32x32x8.ShapeCasts S1024x8
  shapeCasts_S1024x768_S32x32x768 : S1024x768.ShapeCasts S32x32x768
  shapeCasts_S32x768_S1x32x768 : S32x768.ShapeCasts S1x32x768
  broadcasts_S1x32x768_S32x32x768 : S1x32x768.Broadcasts S32x32x768
  shapeCasts_S32x768_S32x1x768 : S32x768.ShapeCasts S32x1x768
  broadcasts_S32x1x768_S32x32x768 : S32x1x768.Broadcasts S32x32x768
  broadcasts_S32x32x1_S32x32x768 : S32x32x1.Broadcasts S32x32x768
  broadcasts_S1x1x768_S32x32x768 : S1x1x768.Broadcasts S32x32x768
  h_S1x32x32x768 : 0 < S1x32x32x768.numel
  shapeCasts_S1x32x32x768_S32x32x768 : S1x32x32x768.ShapeCasts S32x32x768
  shapeCasts_S32x32x768_S1x32x32x768 : S32x32x768.ShapeCasts S1x32x32x768
  gather_S16x128_S8x128x1_S8x128x128_2_0_n_n_0_2_1128_wf : GatherDims.WF S16x128 S8x128x1 S8x128x128 [2] [0] [] [0] [] 2 ![1, 128]
  dot_S5x128_S128x768_S5x768_1_0_0_1_n_n_wf : DotDims.WF S5x128 S128x768 S5x768 [1] [0] [0] [1] [] []
  scatter_S8x768_S1_S5x768_01_n_0_0_wf : ScatterDims.WF S8x768 S1 S5x768 [0, 1] [] [0] 0
  dot_S32x128_S128x768_S32x768_1_0_0_1_n_n_wf : DotDims.WF S32x128 S128x768 S32x768 [1] [0] [0] [1] [] []
  dot_S1024x8_S8x768_S1024x768_1_0_0_1_n_n_wf : DotDims.WF S1024x8 S8x768 S1024x768 [1] [0] [0] [1] [] []
  hrank0 : 0 < grid0.rank
  k0_mult1_dvd : ∀ i : grid0.Coords, 32 ∣ (k0_mult1 i).toNat
  k0_off1_inb : ∀ i : grid0.Coords, ∀ a, (k0_off1 i) a + S1x32x128.size a ≤ S1x128x128.size a
  k0_t1_ok : k0_t1_loop.OK
  k0_mult2_dvd : ∀ k0_t1 : Fin k0_t1_loop.trips, 32 ∣ (k0_mult2 k0_t1).toNat
  k0_off2_inb : ∀ k0_t1 : Fin k0_t1_loop.trips, ∀ a, (k0_off2 k0_t1) a + S32x32x8.size a ≤ S32x128x8.size a
  k0_off3_inb : ∀ k0_t1 : Fin k0_t1_loop.trips, ∀ a, (k0_off3 k0_t1) a + S1x32x128.size a ≤ S1x128x128.size a
  k0_off4_inb : ∀ k0_t1 : Fin k0_t1_loop.trips, ∀ a, (k0_off4 k0_t1) a + S1x32x32x768.size a ≤ S1x32x128x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x128x128.size a
  hwx0_0 : ∀ i : grid0.Coords, EltTy.bits .bf16 = 32 ∨ (Rect.block (s := S8x128x128) S1x128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128.size a ≤ S8x128x128.size a
  hwx0_1 : ∀ i : grid0.Coords, EltTy.bits .i32 = 32 ∨ (Rect.block (s := S8x128x128) S1x32x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x768.size a ≤ S8x768.size a
  hwx0_2 : ∀ i : grid0.Coords, EltTy.bits .f32 = 32 ∨ (Rect.block (s := S8x768) S8x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x128x768.size a ≤ S8x128x128x768.size a
  hwx0_5 : ∀ i : grid0.Coords, EltTy.bits .f32 = 32 ∨ (Rect.block (s := S8x128x128x768) S1x32x128x768.size (cc0_transform_5 i) (hinb0_5 i)).WholeWords (EltTy.packing .f32)

variable [Facts₀]

def gather_S16x128_S8x128x1_S8x128x128_2_0_n_n_0_2_1128 : GatherDims S16x128 S8x128x1 S8x128x128 where
  offsetDims := [2]
  collapsedSliceDims := [0]
  operandBatchingDims := []
  startIndicesBatchingDims := []
  startIndexMap := [0]
  indexVectorDim := 2
  sliceSizes := ![1, 128]
  wf := gather_S16x128_S8x128x1_S8x128x128_2_0_n_n_0_2_1128_wf
def dot_S5x128_S128x768_S5x768_1_0_0_1_n_n : DotDims S5x128 S128x768 S5x768 where
  lhsContracting := [1]
  rhsContracting := [0]
  lhsNonContracting := [0]
  rhsNonContracting := [1]
  lhsBatch := []
  rhsBatch := []
  wf := dot_S5x128_S128x768_S5x768_1_0_0_1_n_n_wf
def scatter_S8x768_S1_S5x768_01_n_0_0 : ScatterDims S8x768 S1 S5x768 where
  updateWindowDims := [0, 1]
  insertedWindowDims := []
  scatterDimsToOperandDims := [0]
  indexVectorDim := 0
  wf := scatter_S8x768_S1_S5x768_01_n_0_0_wf
def dot_S32x128_S128x768_S32x768_1_0_0_1_n_n : DotDims S32x128 S128x768 S32x768 where
  lhsContracting := [1]
  rhsContracting := [0]
  lhsNonContracting := [0]
  rhsNonContracting := [1]
  lhsBatch := []
  rhsBatch := []
  wf := dot_S32x128_S128x768_S32x768_1_0_0_1_n_n_wf
def dot_S1024x8_S8x768_S1024x768_1_0_0_1_n_n : DotDims S1024x8 S8x768 S1024x768 where
  lhsContracting := [1]
  rhsContracting := [0]
  lhsNonContracting := [0]
  rhsNonContracting := [1]
  lhsBatch := []
  rhsBatch := []
  wf := dot_S1024x8_S8x768_S1024x768_1_0_0_1_n_n_wf

abbrev win0_0 : Pipeline.Window sig grid0 :=
  Pipeline.Window.ofSpec (Memref.whole main_v7) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x32x128x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128 : Shape := ⟨2, ![8, 128]⟩
abbrev S8x128x128 : Shape := ⟨3, ![8, 128, 128]⟩
abbrev S16x128 : Shape := ⟨2, ![16, 128]⟩
abbrev S5x128 : Shape := ⟨2, ![5, 128]⟩
abbrev S768x384 : Shape := ⟨2, ![768, 384]⟩
abbrev S768 : Shape := ⟨1, ![768]⟩
abbrev S_ : Shape := ⟨0, ![]⟩
abbrev S8x128x1 : Shape := ⟨3, ![8, 128, 1]⟩
abbrev S8x128x128x1 : Shape := ⟨4, ![8, 128, 128, 1]⟩
abbrev S8x128x128x128 : Shape := ⟨4, ![8, 128, 128, 128]⟩
abbrev S8x128x1x128 : Shape := ⟨4, ![8, 128, 1, 128]⟩
abbrev S8x1x128x128 : Shape := ⟨4, ![8, 1, 128, 128]⟩
abbrev S8x128x128x384 : Shape := ⟨4, ![8, 128, 128, 384]⟩
abbrev S8x128x128x768 : Shape := ⟨4, ![8, 128, 128, 768]⟩
abbrev S1x1x1x768 : Shape := ⟨4, ![1, 1, 1, 768]⟩

abbrev nBuf : Space → Nat
  | .hbm => 40
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S8x128x128, .i32⟩
  | .hbm, ⟨2, _⟩ => ⟨S16x128, .f32⟩
  | .hbm, ⟨3, _⟩ => ⟨S5x128, .f32⟩
  | .hbm, ⟨4, _⟩ => ⟨S768x384, .f32⟩
  | .hbm, ⟨5, _⟩ => ⟨S768, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x128, .f32⟩
  | .hbm, ⟨15, _⟩ => ⟨S_, .i32⟩
  | .hbm, ⟨16, _⟩ => ⟨S8x128x128, .i32⟩
  | .hbm, ⟨17, _⟩ => ⟨S8x128x128, .i1⟩
  | .hbm, ⟨18, _⟩ => ⟨S_, .i32⟩
  | .hbm, ⟨19, _⟩ => ⟨S8x128x128, .i32⟩
  | .hbm, ⟨20, _⟩ => ⟨S8x128x128, .i32⟩
  | .hbm, ⟨21, _⟩ => ⟨S8x128x128, .i32⟩
  | .hbm, ⟨22, _⟩ => ⟨S8x128x128x1, .i32⟩
  | .hbm, ⟨23, _⟩ => ⟨S8x128x128x128, .f32⟩
  | .hbm, ⟨24, _⟩ => ⟨S_, .i32⟩
  | .hbm, ⟨25, _⟩ => ⟨S8x128x128, .i32⟩
  | .hbm, ⟨26, _⟩ => ⟨S8x128x128, .i1⟩
  | .hbm, ⟨27, _⟩ => ⟨S8x128x128x1, .i1⟩
  | .hbm, ⟨28, _⟩ => ⟨S8x128x128x1, .f32⟩
  | .hbm, ⟨29, _⟩ => ⟨S8x128x1x128, .f32⟩
  | .hbm, ⟨30, _⟩ => ⟨S8x128x128x128, .f32⟩
  | .hbm, ⟨31, _⟩ => ⟨S8x1x128x128, .f32⟩
  | .hbm, ⟨32, _⟩ => ⟨S8x128x128x128, .f32⟩
  | .hbm, ⟨33, _⟩ => ⟨S8x128x128x384, .f32⟩
  | .hbm, ⟨34, _⟩ => ⟨S8x128x128x384, .f32⟩
  | .hbm, ⟨35, _⟩ => ⟨S8x128x128x384, .f32⟩
  | .hbm, ⟨36, _⟩ => ⟨S8x128x128x768, .f32⟩
  | .hbm, ⟨37, _⟩ => ⟨S1x1x1x768, .f32⟩
  | .hbm, ⟨38, _⟩ => ⟨S8x128x128x768, .f32⟩
  | .hbm, ⟨39, _⟩ => ⟨S8x128x128x768, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  bcast_S8x128x128_S8x128x1x128_0_1_3 : S8x128x128.BroadcastsInDim S8x128x1x128 (![0, 1, 3] : Fin 3 → Fin S8x128x1x128.rank)
  bcast_S8x128x1x128_S8x128x128x128_0_1_2_3 : S8x128x1x128.BroadcastsInDim S8x128x128x128 (![0, 1, 2, 3] : Fin 4 → Fin S8x128x128x128.rank)
  bcast_S8x128x128_S8x1x128x128_0_2_3 : S8x128x128.BroadcastsInDim S8x1x128x128 (![0, 2, 3] : Fin 3 → Fin S8x1x128x128.rank)
  bcast_S8x1x128x128_S8x128x128x128_0_1_2_3 : S8x1x128x128.BroadcastsInDim S8x128x128x128 (![0, 1, 2, 3] : Fin 4 → Fin S8x128x128x128.rank)
  concatenates_S8x128x128x128_S8x128x128x128_S8x128x128x128_S8x128x128x384_d3 : Shape.Concatenates [S8x128x128x128, S8x128x128x128, S8x128x128x128] S8x128x128x384 3
  bcast_S8x128x128x1_S8x128x128x384_0_1_2_3 : S8x128x128x1.BroadcastsInDim S8x128x128x384 (![0, 1, 2, 3] : Fin 4 → Fin S8x128x128x384.rank)
  bcast_S768_S1x1x1x768_3 : S768.BroadcastsInDim S1x1x1x768 (![3] : Fin 1 → Fin S1x1x1x768.rank)
  bcast_S1x1x1x768_S8x128x128x768_0_1_2_3 : S1x1x1x768.BroadcastsInDim S8x128x128x768 (![0, 1, 2, 3] : Fin 4 → Fin S8x128x128x768.rank)
  gather_S16x128_S8x128x1_S8x128x128_2_0_n_n_0_2_1128_wf : GatherDims.WF S16x128 S8x128x1 S8x128x128 [2] [0] [] [0] [] 2 ![1, 128]
  gather_S5x128_S8x128x128x1_S8x128x128x128_3_0_n_n_0_3_1128_wf : GatherDims.WF S5x128 S8x128x128x1 S8x128x128x128 [3] [0] [] [0] [] 3 ![1, 128]
  dot_S8x128x128x384_S768x384_S8x128x128x768_3_1_012_0_n_n_wf : DotDims.WF S8x128x128x384 S768x384 S8x128x128x768 [3] [1] [0, 1, 2] [0] [] []

variable [Facts₀]

def gather_S16x128_S8x128x1_S8x128x128_2_0_n_n_0_2_1128 : GatherDims S16x128 S8x128x1 S8x128x128 where
  offsetDims := [2]
  collapsedSliceDims := [0]
  operandBatchingDims := []
  startIndicesBatchingDims := []
  startIndexMap := [0]
  indexVectorDim := 2
  sliceSizes := ![1, 128]
  wf := gather_S16x128_S8x128x1_S8x128x128_2_0_n_n_0_2_1128_wf
def gather_S5x128_S8x128x128x1_S8x128x128x128_3_0_n_n_0_3_1128 : GatherDims S5x128 S8x128x128x1 S8x128x128x128 where
  offsetDims := [3]
  collapsedSliceDims := [0]
  operandBatchingDims := []
  startIndicesBatchingDims := []
  startIndexMap := [0]
  indexVectorDim := 3
  sliceSizes := ![1, 128]
  wf := gather_S5x128_S8x128x128x1_S8x128x128x128_3_0_n_n_0_3_1128_wf
def dot_S8x128x128x384_S768x384_S8x128x128x768_3_1_012_0_n_n : DotDims S8x128x128x384 S768x384 S8x128x128x768 where
  lhsContracting := [3]
  rhsContracting := [1]
  lhsNonContracting := [0, 1, 2]
  rhsNonContracting := [0]
  lhsBatch := []
  rhsBatch := []
  wf := dot_S8x128x128x384_S768x384_S8x128x128x768_3_1_012_0_n_n_wf

class Facts : Prop extends Facts₀ where

variable [Facts]
-- ==== Proof.TripPiece.lean ====
/-
  What the body's run stores into the output block, piece by piece. The body's counted loop runs four trips; trip k
  makes ONE store, of the chunk payload of the one-hot rows and node rows 32k … 32k+31, at sending-node offset 32k.
  So every piece of the run is, for some trip k, that store.
-/
import proofs.«428032_j59949153517801_3_alg».proof.Proof.Gen.KernelIdeal.Frame

set_option maxRecDepth 16384

noncomputable section

namespace Cert.KernelIdeal.KValue

open Cert.KernelIdeal Cert.KernelIdeal.Gen Idealize.ShloMosaic Idealize.ShloMosaic.TcCoe Idealize.ShloMosaic.Tactic Idealize.SL.Sem

variable {F : FTy → Type} [FloatOps F]

section
variable (𝒱 : Variants) (c : Dev nD) (bd : Option 𝒱.V) (i : grid0.Coords)
  (arg2 : Memref sig .tc .vmem S1x128x128 .bf16) (harg2 : arg2.IsWhole) (arg3 : Memref sig .tc .vmem S1x32x128 .i32) (harg3 : arg3.IsWhole)
  (arg4 : Memref sig .tc .vmem S8x768 .f32) (harg4 : arg4.IsWhole) (arg5 : Memref sig .tc .vmem S256x768 .bf16) (harg5 : arg5.IsWhole)
  (arg6 : Memref sig .tc .vmem S1x768 .f32) (harg6 : arg6.IsWhole) (arg7 : Memref sig .tc .vmem S1x32x128x768 .f32) (harg7 : arg7.IsWhole)
  (arg8 : Memref sig .tc .vmem S32x128x8 .f32) (harg8 : arg8.IsWhole)
  (v8 : FVec F S128x768 .bf16) (v9 : FVec F S32x768 .f32) (v32 : FVec F S1x1x768 .f32) (v34 : FVec F S8x768 .f32)
  (X2 : BufTy.Contents (Elt F) arg2.view.ty) (X8 : BufTy.Contents (Elt F) arg8.view.ty)

/-- Trip k's store: the chunk payload of the scratch rows and node rows at offset 32k, at the output's sending-node offset 32k. -/
def tripStore (k : Fin k0_t1_loop.trips) : View.Piece (Elt F) S1x32x128x768 .f32 :=
  ⟨Rect.unit (s := S1x32x128x768) (k0_off4 k) S1x32x32x768.size (k0_off4_inb k),
    k0_pay1 v8 v9 v32 v34
      (View.readAt (Elt F) arg8.view (Rect.unit (s := S32x128x8) (k0_off2 k) S32x32x8.size (k0_off2_inb k)).toLoadRect X8)
      (View.readAt (Elt F) arg2.view (Rect.unit (s := S1x128x128) (k0_off3 k) S1x32x128.size (k0_off3_inb k)).toLoadRect X2)⟩

/-- A trip leaves exactly its one store. -/
theorem trip_piece (k : Fin k0_t1_loop.trips) :
    tripL_k0_t1 (F := F) 𝒱 c bd i arg2 harg2 arg3 harg3 arg4 harg4 arg5 harg5 arg6 harg6 arg7 harg7 arg8 harg8 v8 v9 v32 v34 X2 X8 k
      = [tripStore arg2 arg8 v8 v9 v32 v34 X2 X8 k] := by
  unfold tripL_k0_t1 trip_k0_t1 tripStore
  rfl

/-- Every piece of the trips before n is some trip's store. -/
theorem mem_pb : ∀ (n : ℕ) (p : View.Piece (Elt F) S1x32x128x768 .f32),
    p ∈ pb_k0_t1 (F := F) 𝒱 c bd i arg2 harg2 arg3 harg3 arg4 harg4 arg5 harg5 arg6 harg6 arg7 harg7 arg8 harg8 v8 v9 v32 v34 X2 X8 n →
    ∃ k : Fin k0_t1_loop.trips, p = tripStore arg2 arg8 v8 v9 v32 v34 X2 X8 k
  | 0, p, hp => by rw [pb_k0_t1.eq_1] at hp; exact absurd hp List.not_mem_nil
  | n + 1, p, hp => by
    rw [pb_k0_t1.eq_2] at hp
    unfold pb_k0_t1Step at hp
    split at hp
    · next h =>
      rcases List.mem_append.mp hp with h1 | h2
      · rw [trip_piece] at h1
        exact ⟨⟨n, h⟩, List.mem_singleton.mp h1⟩
      · exact mem_pb n p h2
    · exact mem_pb n p hp
end

section
variable (c : Dev nD) (i : grid0.Coords)
  (arg2 : Memref sig .tc .vmem S1x128x128 .bf16) (harg2 : arg2.IsWhole) (arg3 : Memref sig .tc .vmem S1x32x128 .i32) (harg3 : arg3.IsWhole)
  (arg4 : Memref sig .tc .vmem S8x768 .f32) (harg4 : arg4.IsWhole) (arg5 : Memref sig .tc .vmem S256x768 .bf16) (harg5 : arg5.IsWhole)
  (arg6 : Memref sig .tc .vmem S1x768 .f32) (harg6 : arg6.IsWhole) (arg7 : Memref sig .tc .vmem S1x32x128x768 .f32) (harg7 : arg7.IsWhole)
  (arg8 : Memref sig .tc .vmem S32x128x8 .f32) (harg8 : arg8.IsWhole)
  (x0 : Vec F S1x128x128 .bf16) (x1 : Vec F S1x32x128 .i32) (x2 : Vec F S8x768 .f32) (x3 : Vec F S256x768 .bf16) (x4 : Vec F S1x768 .f32)

/-- The second weight block as the body loads it: rows 128–255 of the staged [256, 768] block. -/
abbrev ldW2 : Vec F S128x768 .bf16 :=
  View.readAt (Elt F) arg5.view (Rect.unit (s := S256x768) ![128, 0] S128x768.size inb_S256x768_S128x768_128_0).toLoadRect (harg5.unread x3)
/-- The first weight block: rows 0–127. -/
abbrev ldW1 : Vec F S128x768 .bf16 :=
  View.readAt (Elt F) arg5.view (Rect.unit (s := S256x768) ![0, 0] S128x768.size inb_S256x768_S128x768_0_0).toLoadRect (harg5.unread x3)
/-- The receiving nodes' rows of the node block at this grid point: rows 32·i₁ … 32·i₁+31. -/
abbrev ldHi : Vec F S1x32x128 .bf16 :=
  View.readAt (Elt F) arg2.view (Rect.unit (s := S1x128x128) (k0_off1 i) S1x32x128.size (k0_off1_inb i)).toLoadRect (harg2.unread x0)
/-- The bias row as loaded. -/
abbrev ldB : Vec F S1x768 .f32 :=
  View.readAt (Elt F) arg6.view (Rect.unit (s := S1x768) ![0, 0] S1x768.size inb_S1x768_S1x768_0_0).toLoadRect (harg6.unread x4)
/-- The padded edge-type table as loaded. -/
abbrev ldT : Vec F S8x768 .f32 :=
  View.readAt (Elt F) arg4.view (Rect.unit (s := S8x768) ![0, 0] S8x768.size inb_S8x768_S8x768_0_0).toLoadRect (harg4.unread x2)
/-- The adjacency block as loaded. -/
abbrev ldAdj : Vec F S1x32x128 .i32 :=
  View.readAt (Elt F) arg3.view (Rect.unit (s := S1x32x128) ![0, 0, 0] S1x32x128.size inb_S1x32x128_S1x32x128_0_0_0).toLoadRect (harg3.unread x1)
/-- The scratch after the one-hot store: that one whole-buffer piece written over unspecified contents. -/
abbrev scrAfter : BufTy.Contents (Elt F) arg8.view.ty :=
  arg8.view.writes (Elt F) arg8.view.junk
    [⟨Rect.unit (s := S32x128x8) ![0, 0, 0] S32x128x8.size inb_S32x128x8_S32x128x8_0_0_0, k0_pay4 (ldAdj arg3 harg3 x1)⟩]

/-- Every piece the body's run stores into the output block is some trip's store, over the values the body
    fixed before the loop (the two weight blocks' products' operands, the bias, the table) and the scratch as the
    one-hot store left it. -/
theorem run_piece (p : View.Piece (Elt F) S1x32x128x768 .f32)
    (hp : p ∈ (kernelRun0_A (F := F) c i arg2 harg2 arg3 harg3 arg4 harg4 arg5 harg5 arg6 harg6 arg7 harg7 arg8 harg8 x0 x1 x2 x3 x4).1) :
    ∃ k : Fin k0_t1_loop.trips, p = tripStore arg2 arg8
      (k0_pay2 (ldW2 arg5 harg5 x3)) (k0_pay3 (ldHi i arg2 harg2 x0) (ldW1 arg5 harg5 x3)) (k0_pay5 (ldB arg6 harg6 x4)) (k0_pay6 (ldT arg4 harg4 x2))
      (harg2.unread x0) (scrAfter arg3 harg3 arg8 x1) k := by
  unfold kernelRun0_A at hp
  dsimp only at hp
  exact mem_pb Variants.none c none i arg2 harg2 arg3 harg3 arg4 harg4 arg5 harg5 arg6 harg6 arg7 harg7 arg8 harg8 _ _ _ _ _ _ _ p hp
end

end Cert.KernelIdeal.KValue

end
-- ==== Proof.Spec.lean ====
/-
  The message layer as ONE function of the argument arrays, index by index, over the extended reals.

  For a batch `b`, a receiving node `i`, a sending node `j` and an output channel `o`,

      m[b, i, j, o] = ∑ k < 384, (cat[b, i, j, k] · μ[b, i, j]) · W[o, k] + bias[o],

  where `cat` is the concatenation (h[b, i, ·], h[b, j, ·], e[type(b, i, j), ·]) of the two node
  embeddings and the embedding of the edge's type, and `μ` is 1 on an edge (type > 0) and 0 on a non-edge.
  The node embeddings `h` enter as an array of their own: both programs compute them by the same lookup.
-/
import Idealize.ShloMosaic.PureOps.Ideal
import Idealize.ShloMosaic.Lib.ValueIdx

noncomputable section

namespace Cert.Msg

open Idealize.ShloMosaic Idealize.ShloMosaic.ValueIdx

/-- Node embeddings per batch and node, [8, 128, 128]; the adjacency words have the same shape. -/
abbrev SNode : Shape := ⟨3, ![8, 128, 128]⟩
/-- The edge-type embedding table, [5, 128]. -/
abbrev SEdge : Shape := ⟨2, ![5, 128]⟩
/-- The linear layer's weight, [768, 384] (output channel, input channel). -/
abbrev SWt : Shape := ⟨2, ![768, 384]⟩
/-- The bias, [768]. -/
abbrev SBias : Shape := ⟨1, ![768]⟩
/-- The messages, [8, 128, 128, 768]. -/
abbrev SOut : Shape := ⟨4, ![8, 128, 128, 768]⟩

/-- The edge indicator of an adjacency word: 1 where the type is positive, else 0. -/
def mask (a : BitVec 32) : EReal := if 0 < a.toInt then 1 else 0

/-- The row of the edge table an adjacency word selects: the word read signed, clamped into the table. -/
def erow (a : BitVec 32) : Fin 5 := ⟨min a.toInt.toNat 4, by omega⟩

theorem mask_zero_or_one (a : BitVec 32) : mask a = 0 ∨ mask a = 1 := by
  unfold mask; split
  · exact Or.inr rfl
  · exact Or.inl rfl

/-- Channel `k` of the concatenated message input for the pair (i, j) of batch `b`: the receiver's embedding
    on channels 0–127, the sender's on 128–255, the edge type's on 256–383. -/
def cat (hn : SNode.Idx → EReal) (adj : SNode.Idx → BitVec 32) (ee : SEdge.Idx → EReal)
    (b : Fin 8) (i j : Fin 128) (k : Fin 384) : EReal :=
  if h1 : k.val < 128 then hn (ix3 b i ⟨k.val, h1⟩)
  else if h2 : k.val < 256 then hn (ix3 b j ⟨k.val - 128, by omega⟩)
  else ee (ix2 (erow (adj (ix3 b i j))) ⟨k.val - 256, by omega⟩)

/-- The message at explicit coordinates. -/
def msgAt (hn : SNode.Idx → EReal) (adj : SNode.Idx → BitVec 32) (ee : SEdge.Idx → EReal)
    (W : SWt.Idx → EReal) (bias : SBias.Idx → EReal) (b : Fin 8) (i j : Fin 128) (o : Fin 768) : EReal :=
  (∑ k : Fin 384, (cat hn adj ee b i j k * mask (adj (ix3 b i j))) * W (ix2 o k)) + bias (ix1 o)

/-- The whole message array. -/
def Gm (hn : SNode.Idx → EReal) (adj : SNode.Idx → BitVec 32) (ee : SEdge.Idx → EReal)
    (W : SWt.Idx → EReal) (bias : SBias.Idx → EReal) : SOut.Idx → EReal :=
  fun y => msgAt hn adj ee W bias ⟨(y 0).val, (y 0).isLt⟩ ⟨(y 1).val, (y 1).isLt⟩ ⟨(y 2).val, (y 2).isLt⟩ ⟨(y 3).val, (y 3).isLt⟩

theorem Gm_apply (hn : SNode.Idx → EReal) (adj : SNode.Idx → BitVec 32) (ee : SEdge.Idx → EReal)
    (W : SWt.Idx → EReal) (bias : SBias.Idx → EReal) (b : Fin 8) (i j : Fin 128) (o : Fin 768) :
    Gm hn adj ee W bias (ix4 b i j o) = msgAt hn adj ee W bias b i j o := rfl

end Cert.Msg

end
-- ==== Proof.Payloads.lean ====
/-
  The kernel body's pure values, read at an index over the extended reals.
  Per chunk of 32 sending nodes the body forms, for receiver p, sender q and output channel o,
      ((∑ e, onehot[p, q, e] · T[e, o]) + (∑ c, hj[q, c] · W2[c, o]) + t1[p, o]) · (1 − onehot[p, q, 0]) + bias[o],
  where T is the edge-type table through the layer's third block, W2 its second block, t1 the receiver's term
  (a 128-term product against the first block), and onehot the indicator of the clamped edge type among 8 classes.
-/
import proofs.«428032_j59949153517801_3_alg».proof.Proof.Gen.KernelIdeal.Skeleton
import proofs.«428032_j59949153517801_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-! ### The two products' operand indices, axis by axis -/

private theorem lhs_dot32_0 (i : S32x768.Idx) (q : dot_S32x128_S128x768_S32x768_1_0_0_1_n_n.contr.Idx) :
    (dot_S32x128_S128x768_S32x768_1_0_0_1_n_n.lhsIdx i q 0).val = (i 0).val := by
  unfold DotDims.lhsIdx
  rw [dif_neg (show ¬(0 : Fin S32x128.rank) ∈ dot_S32x128_S128x768_S32x768_1_0_0_1_n_n.lhsBatch by decide), dif_pos (show (0 : Fin S32x128.rank) ∈ dot_S32x128_S128x768_S32x768_1_0_0_1_n_n.lhsNonContracting by decide)]
  rfl
private theorem lhs_dot32_1 (i : S32x768.Idx) (q : dot_S32x128_S128x768_S32x768_1_0_0_1_n_n.contr.Idx) :
    (dot_S32x128_S128x768_S32x768_1_0_0_1_n_n.lhsIdx i q 1).val = (q ⟨0, by decide⟩).val :=
  dot_S32x128_S128x768_S32x768_1_0_0_1_n_n.lhsIdx_val_of_single rfl i q
private theorem rhs_dot32_0 (i : S32x768.Idx) (q : dot_S32x128_S128x768_S32x768_1_0_0_1_n_n.contr.Idx) :
    (dot_S32x128_S128x768_S32x768_1_0_0_1_n_n.rhsIdx i q 0).val = (q ⟨0, by decide⟩).val :=
  dot_S32x128_S128x768_S32x768_1_0_0_1_n_n.rhsIdx_val_of_single rfl i q
private theorem rhs_dot32_1 (i : S32x768.Idx) (q : dot_S32x128_S128x768_S32x768_1_0_0_1_n_n.contr.Idx) :
    (dot_S32x128_S128x768_S32x768_1_0_0_1_n_n.rhsIdx i q 1).val = (i 1).val := by
  unfold DotDims.rhsIdx
  rw [dif_neg (show ¬(1 : Fin S128x768.rank) ∈ dot_S32x128_S128x768_S32x768_1_0_0_1_n_n.rhsBatch by decide), dif_pos (show (1 : Fin S128x768.rank) ∈ dot_S32x128_S128x768_S32x768_1_0_0_1_n_n.rhsNonContracting by decide)]
  rfl

private theorem lhs_dot1024_0 (i : S1024x768.Idx) (q : dot_S1024x8_S8x768_S1024x768_1_0_0_1_n_n.contr.Idx) :
    (dot_S1024x8_S8x768_S1024x768_1_0_0_1_n_n.lhsIdx i q 0).val = (i 0).val := by
  unfold DotDims.lhsIdx
  rw [dif_neg (show ¬(0 : Fin S1024x8.rank) ∈ dot_S1024x8_S8x768_S1024x768_1_0_0_1_n_n.lhsBatch by decide), dif_pos (show (0 : Fin S1024x8.rank) ∈ dot_S1024x8_S8x768_S1024x768_1_0_0_1_n_n.lhsNonContracting by decide)]
  rfl
private theorem lhs_dot1024_1 (i : S1024x768.Idx) (q : dot_S1024x8_S8x768_S1024x768_1_0_0_1_n_n.contr.Idx) :
    (dot_S1024x8_S8x768_S1024x768_1_0_0_1_n_n.lhsIdx i q 1).val = (q ⟨0, by decide⟩).val :=
  dot_S1024x8_S8x768_S1024x768_1_0_0_1_n_n.lhsIdx_val_of_single rfl i q
private theorem rhs_dot1024_0 (i : S1024x768.Idx) (q : dot_S1024x8_S8x768_S1024x768_1_0_0_1_n_n.contr.Idx) :
    (dot_S1024x8_S8x768_S1024x768_1_0_0_1_n_n.rhsIdx i q 0).val = (q ⟨0, by decide⟩).val :=
  dot_S1024x8_S8x768_S1024x768_1_0_0_1_n_n.rhsIdx_val_of_single rfl i q
private theorem rhs_dot1024_1 (i : S1024x768.Idx) (q : dot_S1024x8_S8x768_S1024x768_1_0_0_1_n_n.contr.Idx) :
    (dot_S1024x8_S8x768_S1024x768_1_0_0_1_n_n.rhsIdx i q 1).val = (i 1).val := by
  unfold DotDims.rhsIdx
  rw [dif_neg (show ¬(1 : Fin S8x768.rank) ∈ dot_S1024x8_S8x768_S1024x768_1_0_0_1_n_n.rhsBatch by decide), dif_pos (show (1 : Fin S8x768.rank) ∈ dot_S1024x8_S8x768_S1024x768_1_0_0_1_n_n.rhsNonContracting by decide)]
  rfl

/-- A [32,128] × [128,768] product into the zero accumulator, at (p, o): the 128-term sum. -/
private theorem matmul32_apply (a : FVec Ideal S32x128 .bf16) (b : FVec Ideal S128x768 .bf16) (p : Fin 32) (o : Fin 768) :
    matmul (F := Ideal) dot_S32x128_S128x768_S32x768_1_0_0_1_n_n none a b (constant (F := Ideal) S32x768 .f32 0x00000000#32) (ix2 p o)
      = ∑ cc : Fin 128, a (ix2 p cc) * b (ix2 cc o) := by
  refine (Ideal.matmul_constant_zero_apply dot_S32x128_S128x768_S32x768_1_0_0_1_n_n none a b (ix2 p o)).trans ?_
  rw [← Equiv.sum_comp (ValueIdx.contrEquiv1 dot_S32x128_S128x768_S32x768_1_0_0_1_n_n 128 rfl rfl).symm]
  refine Finset.sum_congr rfl fun k _ => ?_
  have hk := ValueIdx.contrEquiv1_symm_val dot_S32x128_S128x768_S32x768_1_0_0_1_n_n 128 rfl rfl k
  have el : dot_S32x128_S128x768_S32x768_1_0_0_1_n_n.lhsIdx (ix2 p o) ((ValueIdx.contrEquiv1 dot_S32x128_S128x768_S32x768_1_0_0_1_n_n 128 rfl rfl).symm k) = ix2 p k := funext fun ax => Fin.ext (by
    match ax with
    | ⟨0, _⟩ => exact lhs_dot32_0 _ _
    | ⟨1, _⟩ => exact (lhs_dot32_1 _ _).trans hk)
  have er : dot_S32x128_S128x768_S32x768_1_0_0_1_n_n.rhsIdx (ix2 p o) ((ValueIdx.contrEquiv1 dot_S32x128_S128x768_S32x768_1_0_0_1_n_n 128 rfl rfl).symm k) = ix2 k o := funext fun ax => Fin.ext (by
    match ax with
    | ⟨0, _⟩ => exact (rhs_dot32_0 _ _).trans hk
    | ⟨1, _⟩ => exact rhs_dot32_1 _ _)
  rw [el, er]

/-- A [1024,8] × [8,768] product into the zero accumulator, at (r, o): the 8-term sum. -/
private theorem matmul1024_apply (a : FVec Ideal S1024x8 .f32) (b : FVec Ideal S8x768 .f32) (r : Fin 1024) (o : Fin 768) :
    matmul (F := Ideal) dot_S1024x8_S8x768_S1024x768_1_0_0_1_n_n none a b (constant (F := Ideal) S1024x768 .f32 0x00000000#32) (ix2 r o)
      = ∑ e : Fin 8, a (ix2 r e) * b (ix2 e o) := by
  refine (Ideal.matmul_constant_zero_apply dot_S1024x8_S8x768_S1024x768_1_0_0_1_n_n none a b (ix2 r o)).trans ?_
  rw [← Equiv.sum_comp (ValueIdx.contrEquiv1 dot_S1024x8_S8x768_S1024x768_1_0_0_1_n_n 8 rfl rfl).symm]
  refine Finset.sum_congr rfl fun k _ => ?_
  have hk := ValueIdx.contrEquiv1_symm_val dot_S1024x8_S8x768_S1024x768_1_0_0_1_n_n 8 rfl rfl k
  have el : dot_S1024x8_S8x768_S1024x768_1_0_0_1_n_n.lhsIdx (ix2 r o) ((ValueIdx.contrEquiv1 dot_S1024x8_S8x768_S1024x768_1_0_0_1_n_n 8 rfl rfl).symm k) = ix2 r k := funext fun ax => Fin.ext (by
    match ax with
    | ⟨0, _⟩ => exact lhs_dot1024_0 _ _
    | ⟨1, _⟩ => exact (lhs_dot1024_1 _ _).trans hk)
  have er : dot_S1024x8_S8x768_S1024x768_1_0_0_1_n_n.rhsIdx (ix2 r o) ((ValueIdx.contrEquiv1 dot_S1024x8_S8x768_S1024x768_1_0_0_1_n_n 8 rfl rfl).symm k) = ix2 k o := funext fun ax => Fin.ext (by
    match ax with
    | ⟨0, _⟩ => exact (rhs_dot1024_0 _ _).trans hk
    | ⟨1, _⟩ => exact rhs_dot1024_1 _ _)
  rw [el, er]

/-! ### The layout operations of the body, read at coordinates -/

section Layout
variable {α : Type}

/-- A [1,32,768] array broadcast to [32,32,768] reads, at (p, q, o), the operand at (0, q, o). -/
private theorem bcast_1bc_apply (x : S1x32x768.Idx → α) (h : S1x32x768.Broadcasts S32x32x768) (p q : Fin 32) (o : Fin 768) :
    broadcastTo S32x32x768 x h (ix3 p q o) = x (ix3 (0 : Fin 1) q o) := by
  refine broadcastTo_apply x h (ix3 p q o) (ix3 (0 : Fin 1) q o) fun ax => ?_
  match ax with
  | ⟨0, _⟩ => show 0 = if (1 : Nat) = 1 then 0 else p.val; rw [if_pos rfl]
  | ⟨1, _⟩ => show q.val = if (32 : Nat) = 1 then 0 else q.val; rw [if_neg (by decide)]
  | ⟨2, _⟩ => show o.val = if (768 : Nat) = 1 then 0 else o.val; rw [if_neg (by decide)]

/-- A [32,1,768] array broadcast to [32,32,768] reads, at (p, q, o), the operand at (p, 0, o). -/
private theorem bcast_a1c_apply (x : S32x1x768.Idx → α) (h : S32x1x768.Broadcasts S32x32x768) (p q : Fin 32) (o : Fin 768) :
    broadcastTo S32x32x768 x h (ix3 p q o) = x (ix3 p (0 : Fin 1) o) := by
  refine broadcastTo_apply x h (ix3 p q o) (ix3 p (0 : Fin 1) o) fun ax => ?_
  match ax with
  | ⟨0, _⟩ => show p.val = if (32 : Nat) = 1 then 0 else p.val; rw [if_neg (by decide)]
  | ⟨1, _⟩ => show 0 = if (1 : Nat) = 1 then 0 else q.val; rw [if_pos rfl]
  | ⟨2, _⟩ => show o.val = if (768 : Nat) = 1 then 0 else o.val; rw [if_neg (by decide)]

/-- A [32,32,1] array broadcast to [32,32,768] reads, at (p, q, o), the operand at (p, q, 0). -/
private theorem bcast_ab1_apply (x : S32x32x1.Idx → α) (h : S32x32x1.Broadcasts S32x32x768) (p q : Fin 32) (o : Fin 768) :
    broadcastTo S32x32x768 x h (ix3 p q o) = x (ix3 p q (0 : Fin 1)) := by
  refine broadcastTo_apply x h (ix3 p q o) (ix3 p q (0 : Fin 1)) fun ax => ?_
  match ax with
  | ⟨0, _⟩ => show p.val = if (32 : Nat) = 1 then 0 else p.val; rw [if_neg (by decide)]
  | ⟨1, _⟩ => show q.val = if (32 : Nat) = 1 then 0 else q.val; rw [if_neg (by decide)]
  | ⟨2, _⟩ => show 0 = if (1 : Nat) = 1 then 0 else o.val; rw [if_pos rfl]

/-- A [1,1,768] array broadcast to [32,32,768] reads, at (p, q, o), the operand at (0, 0, o). -/
private theorem bcast_11c_apply (x : S1x1x768.Idx → α) (h : S1x1x768.Broadcasts S32x32x768) (p q : Fin 32) (o : Fin 768) :
    broadcastTo S32x32x768 x h (ix3 p q o) = x (ix3 (0 : Fin 1) (0 : Fin 1) o) := by
  refine broadcastTo_apply x h (ix3 p q o) (ix3 (0 : Fin 1) (0 : Fin 1) o) fun ax => ?_
  match ax with
  | ⟨0, _⟩ => show 0 = if (1 : Nat) = 1 then 0 else p.val; rw [if_pos rfl]
  | ⟨1, _⟩ => show 0 = if (1 : Nat) = 1 then 0 else q.val; rw [if_pos rfl]
  | ⟨2, _⟩ => show o.val = if (768 : Nat) = 1 then 0 else o.val; rw [if_neg (by decide)]

/-- A [32,768] array cast to [32,1,768] reads, at (p, u, o), the operand at (p, o). -/
private theorem cast_ab_a1b_apply (x : S32x768.Idx → α) (h : S32x768.ShapeCasts S32x1x768) (p : Fin 32) (u : Fin 1) (o : Fin 768) :
    shapeCast S32x1x768 x h (ix3 p u o) = x (ix2 p o) :=
  shapeCast_apply x h _ _ (by
    have hu : u.val = 0 := by omega
    rw [Shape.rowMajor_val_three, Shape.rowMajor_val_two]
    show p.val * 768 + o.val = (p.val * 1 + u.val) * 768 + o.val
    rw [hu, Nat.mul_one, Nat.add_zero])

/-- A [1024,768] array cast to [32,32,768] reads, at (p, q, o), the operand's row 32·p + q at o. -/
private theorem cast_rows_apply (x : S1024x768.Idx → α) (h : S1024x768.ShapeCasts S32x32x768) (p q : Fin 32) (o : Fin 768) :
    shapeCast S32x32x768 x h (ix3 p q o)
      = x (ix2 (⟨32 * p.val + q.val, by have := p.isLt; have := q.isLt; omega⟩ : Fin 1024) o) :=
  shapeCast_apply x h _ _ (by
    rw [Shape.rowMajor_val_three, Shape.rowMajor_val_two]
    show (32 * p.val + q.val) * 768 + o.val = (p.val * 32 + q.val) * 768 + o.val
    omega)

/-- A [32,32,8] array cast to [1024,8] reads, at row 32·p + q and class e, the operand at (p, q, e). -/
private theorem cast_flat_apply (x : S32x32x8.Idx → α) (h : S32x32x8.ShapeCasts S1024x8) (p q : Fin 32) (e : Fin 8) :
    shapeCast S1024x8 x h (ix2 (⟨32 * p.val + q.val, by have := p.isLt; have := q.isLt; omega⟩ : Fin 1024) e)
      = x (ix3 p q e) :=
  shapeCast_apply x h _ _ (by
    rw [Shape.rowMajor_val_three, Shape.rowMajor_val_two]
    show (p.val * 32 + q.val) * 8 + e.val = (32 * p.val + q.val) * 8 + e.val
    omega)

/-- The first class cut out of a [32,32,8] array reads, at (p, q, u), the operand at (p, q, 0). -/
private theorem slice_first_apply (x : S32x32x8.Idx → α) (h : S32x32x8.Slices ![0, 0, 0] S32x32x1) (p q : Fin 32) (u : Fin 1) :
    extractStridedSlice S32x32x1 ![0, 0, 0] x h (ix3 p q u) = x (ix3 p q (0 : Fin 8)) :=
  extractStridedSlice_apply _ x h _ _ (fun ax => by
    match ax with
    | ⟨0, _⟩ => exact (Nat.zero_add _).symm
    | ⟨1, _⟩ => exact (Nat.zero_add _).symm
    | ⟨2, _⟩ => show 0 = 0 + u.val; omega)

end Layout

/-- The pattern of 1.0 denotes the extended real 1. -/
private theorem one_f32 : (Scalar.ofBits .f32 0x3F800000#32 : Ideal .f32) = (1 : EReal) := by
  show Ideal.ofBits .f32 0x3F800000#32 = 1
  simp [Ideal.ofBits, Ideal.ieee]
  rw [← EReal.coe_mul]
  norm_num

/-- The stored chunk at (0, p, q, o). -/
theorem pay1_apply (v8 : FVec Ideal S128x768 .bf16) (v9 : FVec Ideal S32x768 .f32) (v32 : FVec Ideal S1x1x768 .f32)
    (v34 : FVec Ideal S8x768 .f32) (v39 : FVec Ideal S32x32x8 .f32) (v41 : FVec Ideal S1x32x128 .bf16)
    (p q : Fin 32) (o : Fin 768) :
    k0_pay1 (F := Ideal) v8 v9 v32 v34 v39 v41 (ix4 (0 : Fin 1) p q o)
      = (((∑ e : Fin 8, v39 (ix3 p q e) * v34 (ix2 e o))
            + (∑ cc : Fin 128, v41 (ix3 (0 : Fin 1) q cc) * v8 (ix2 cc o)))
            + v9 (ix2 p o)) * (1 - v39 (ix3 p q (0 : Fin 8)))
          + v32 (ix3 (0 : Fin 1) (0 : Fin 1) o) := by
  unfold k0_pay1
  refine (shapeCast_abc_1abc_apply _ _ (0 : Fin 1) p q o).trans ?_
  refine (addf_apply _ _ _).trans ?_
  refine congrArg₂ (· + ·) ?_ (bcast_11c_apply v32 _ p q o)
  refine (mulf_apply _ _ _).trans ?_
  refine congrArg₂ (· * ·) ?_ ?_
  · refine (addf_apply _ _ _).trans ?_
    refine congrArg₂ (· + ·) ?_ ?_
    · refine (addf_apply _ _ _).trans ?_
      refine congrArg₂ (· + ·) ?_ ?_
      · -- the edge-type term: row 32·p + q of the 8-term product
        refine (cast_rows_apply _ _ p q o).trans ?_
        refine (matmul1024_apply _ v34 _ o).trans ?_
        exact Finset.sum_congr rfl fun e _ => congrArg (· * v34 (ix2 e o)) (cast_flat_apply v39 _ p q e)
      · -- the sender's term: row q of the 128-term product
        refine (bcast_1bc_apply _ _ p q o).trans ?_
        refine (shapeCast_ab_1ab_apply _ _ (0 : Fin 1) q o).trans ?_
        refine (matmul32_apply _ v8 q o).trans ?_
        exact Finset.sum_congr rfl fun cc _ => congrArg (· * v8 (ix2 cc o)) (shapeCast_1ab_ab_apply v41 _ q cc)
    · -- the receiver's term
      refine (bcast_a1c_apply _ _ p q o).trans ?_
      exact cast_ab_a1b_apply v9 _ p (0 : Fin 1) o
  · -- the mask 1 − onehot[p, q, 0]
    refine (bcast_ab1_apply _ _ p q o).trans ?_
    refine (subf_apply _ _ _).trans ?_
    exact congrArg₂ (· - ·) one_f32 (slice_first_apply v39 _ p q (0 : Fin 1))

/-- The receiver's term at (p, o): a 128-term product. -/
theorem pay3_apply (v3 : FVec Ideal S1x32x128 .bf16) (v5 : FVec Ideal S128x768 .bf16) (p : Fin 32) (o : Fin 768) :
    k0_pay3 (F := Ideal) v3 v5 (ix2 p o) = ∑ cc : Fin 128, v3 (ix3 (0 : Fin 1) p cc) * v5 (ix2 cc o) := by
  unfold k0_pay3
  refine (matmul32_apply _ _ p o).trans ?_
  refine Finset.sum_congr rfl fun cc _ => ?_
  rw [shapeCast_self v5, shapeCast_1ab_ab_apply]

/-- The second weight block is passed on as loaded. -/
theorem pay2_eq (v7 : FVec Ideal S128x768 .bf16) : k0_pay2 (F := Ideal) v7 = v7 := by
  unfold k0_pay2
  exact shapeCast_self v7 _

/-- The edge-type table is passed on as loaded. -/
theorem pay6_eq (v33 : FVec Ideal S8x768 .f32) : k0_pay6 (F := Ideal) v33 = v33 := by
  unfold k0_pay6
  exact shapeCast_self v33 _

/-- The bias row, re-laid as [1, 1, 768]. -/
theorem pay5_apply (v30 : FVec Ideal S1x768 .f32) (o : Fin 768) :
    k0_pay5 (F := Ideal) v30 (ix3 (0 : Fin 1) (0 : Fin 1) o) = v30 (ix2 (0 : Fin 1) o) := by
  unfold k0_pay5
  refine (shapeCast_ab_1ab_apply _ _ (0 : Fin 1) (0 : Fin 1) o).trans ?_
  exact congrFun (shapeCast_self v30 _) _

/-! ### The one-hot indicator: the word's wrap and clamp, the class counter, the 0/1 word as a value -/

/-- The wrap (add 5 below zero) and clamp (into 0..4) of an adjacency word, as the body computes it. -/
private def clampWord (a : BitVec 32) : BitVec 32 :=
  IntOp.minsi 4#32 (IntOp.maxsi 0#32 (Scalar.select (IntOp.cmpi .slt a 0#32) (IntOp.addi a 5#32) a))

/-- A word that reads signed in 0..4 reads unsigned below 5. -/
private theorem toNat_lt_five (a : BitVec 32) (h0 : 0 ≤ a.toInt) (h5 : a.toInt < 5) : a.toNat < 5 ∧ a.toInt = a.toNat := by
  have h2 := a.isLt
  have e := BitVec.toInt_eq_toNat_cond a
  split at e <;> omega

/-- A word that reads signed in 0..4 is one of the five words 0, 1, 2, 3, 4. -/
private theorem word_cases (a : BitVec 32) (h0 : 0 ≤ a.toInt) (h5 : a.toInt < 5) :
    a = 0#32 ∨ a = 1#32 ∨ a = 2#32 ∨ a = 3#32 ∨ a = 4#32 := by
  have hlt := (toNat_lt_five a h0 h5).1
  have ha : ∀ n, a.toNat = n → n < 5 → a = BitVec.ofNat 32 n := fun n hn hl =>
    BitVec.eq_of_toNat_eq (by rw [hn, BitVec.toNat_ofNat]; omega)
  generalize hn : a.toNat = n at hlt
  match n, hlt with
  | 0, _ => exact Or.inl (ha 0 hn (by omega))
  | 1, _ => exact Or.inr (Or.inl (ha 1 hn (by omega)))
  | 2, _ => exact Or.inr (Or.inr (Or.inl (ha 2 hn (by omega))))
  | 3, _ => exact Or.inr (Or.inr (Or.inr (Or.inl (ha 3 hn (by omega)))))
  | 4, _ => exact Or.inr (Or.inr (Or.inr (Or.inr (ha 4 hn (by omega)))))

/-- On an edge type the wrap and the clamp do nothing. -/
private theorem clampWord_eq (a : BitVec 32) (h0 : 0 ≤ a.toInt) (h5 : a.toInt < 5) : clampWord a = a := by
  rcases word_cases a h0 h5 with rfl | rfl | rfl | rfl | rfl <;> decide

/-- The 0/1 word of a comparison, widened and read signed, is the value 0 or 1. -/
private theorem sitofp_ofBool (b : Bool) :
    FloatOps.sitofp (F := Ideal) .f32 ((BitVec.ofBool b).setWidth 32) = if b = true then (1 : EReal) else 0 := by
  cases b
  · show (((((BitVec.ofBool false).setWidth 32).toInt : ℤ) : ℝ) : EReal) = _
    have e : ((BitVec.ofBool false).setWidth 32).toInt = 0 := by decide
    rw [e]; simp
  · show (((((BitVec.ofBool true).setWidth 32).toInt : ℤ) : ℝ) : EReal) = _
    have e : ((BitVec.ofBool true).setWidth 32).toInt = 1 := by decide
    rw [e]; simp

/-- The indicator of one word at class e: 1 exactly on the word's own row of the table. -/
private theorem onehot_word (a : BitVec 32) (e : Fin 8) (h : 0 ≤ a.toInt ∧ a.toInt < 5) :
    FloatOps.sitofp (F := Ideal) .f32 ((IntOp.cmpi .eq (clampWord a) (BitVec.ofNat 32 e.val)).setWidth 32)
      = if e.val = (Cert.Msg.erow a).val then (1 : EReal) else 0 := by
  have hn := toNat_lt_five a h.1 h.2
  have hrow : (Cert.Msg.erow a).val = a.toNat := by
    show min a.toInt.toNat 4 = a.toNat
    omega
  rw [clampWord_eq a h.1 h.2, hrow]
  show FloatOps.sitofp (F := Ideal) .f32 ((BitVec.ofBool (a == BitVec.ofNat 32 e.val)).setWidth 32) = _
  rw [sitofp_ofBool]
  have hiff : (a == BitVec.ofNat 32 e.val) = true ↔ e.val = a.toNat := by
    rw [beq_iff_eq]
    have he := e.isLt
    constructor
    · intro hh
      rw [hh, BitVec.toNat_ofNat]
      omega
    · intro hh
      apply BitVec.eq_of_toNat_eq
      rw [BitVec.toNat_ofNat, ← hh]
      omega
  by_cases hb : e.val = a.toNat
  · rw [if_pos hb, if_pos (hiff.2 hb)]
  · rw [if_neg hb, if_neg (fun hh => hb (hiff.1 hh))]

section Layout4
variable {α : Type}

/-- A [32,128,1] array broadcast to [32,128,8] reads, at (p, j, e), the operand at (p, j, 0). -/
private theorem bcast_last_apply (x : S32x128x1.Idx → α) (h : S32x128x1.Broadcasts S32x128x8) (p : Fin 32) (j : Fin 128) (e : Fin 8) :
    broadcastTo S32x128x8 x h (ix3 p j e) = x (ix3 p j (0 : Fin 1)) := by
  refine broadcastTo_apply x h (ix3 p j e) (ix3 p j (0 : Fin 1)) fun ax => ?_
  match ax with
  | ⟨0, _⟩ => show p.val = if (32 : Nat) = 1 then 0 else p.val; rw [if_neg (by decide)]
  | ⟨1, _⟩ => show j.val = if (128 : Nat) = 1 then 0 else j.val; rw [if_neg (by decide)]
  | ⟨2, _⟩ => show 0 = if (1 : Nat) = 1 then 0 else e.val; rw [if_pos rfl]

/-- A [32,128] array cast to [32,128,1] reads, at (p, j, u), the operand at (p, j). -/
private theorem cast_add_last_apply (x : S32x128.Idx → α) (h : S32x128.ShapeCasts S32x128x1) (p : Fin 32) (j : Fin 128) (u : Fin 1) :
    shapeCast S32x128x1 x h (ix3 p j u) = x (ix2 p j) :=
  shapeCast_apply x h _ _ (by
    have hu : u.val = 0 := by omega
    rw [Shape.rowMajor_val_three, Shape.rowMajor_val_two]
    show p.val * 128 + j.val = (p.val * 128 + j.val) * 1 + u.val
    rw [hu, Nat.mul_one, Nat.add_zero])

end Layout4

/-- The one-hot indicator at (p, j, e), for an adjacency word that is an edge type: 1 on the word's own class, else 0. -/
theorem pay4_apply (v10 : IVec S1x32x128 32) (p : Fin 32) (j : Fin 128) (e : Fin 8)
    (h : 0 ≤ (v10 (ix3 (0 : Fin 1) p j)).toInt ∧ (v10 (ix3 (0 : Fin 1) p j)).toInt < 5) :
    k0_pay4 (F := Ideal) v10 (ix3 p j e)
      = if e.val = (Cert.Msg.erow (v10 (ix3 (0 : Fin 1) p j))).val then (1 : EReal) else 0 := by
  unfold k0_pay4
  refine (congrFun (shapeCast_self _ _) _).trans ?_
  refine Eq.trans ?_ (onehot_word (v10 (ix3 (0 : Fin 1) p j)) e h)
  show FloatOps.sitofp (F := Ideal) .f32 ((IntOp.cmpi .eq
      (broadcastTo S32x128x8 _ broadcasts_S32x128x1_S32x128x8 (ix3 p j e))
      (iota .tc S32x128x8 32 [2] iota_S32x128x8_d2_w32 (ix3 p j e))).setWidth 32) = _
  refine congrArg (FloatOps.sitofp (F := Ideal) .f32) (congrArg (BitVec.setWidth 32) (congrArg₂ (IntOp.cmpi .eq) ?_ ?_))
  · -- the clamped word, through the added unit axis and its broadcast over the classes
    refine (bcast_last_apply _ _ p j e).trans ?_
    refine (cast_add_last_apply _ _ p j (0 : Fin 1)).trans ?_
    show clampWord (shapeCast S32x128 v10 shapeCasts_S1x32x128_S32x128 (ix2 p j)) = _
    exact congrArg clampWord (shapeCast_1ab_ab_apply v10 _ p j)
  · -- the class counter along the last axis
    exact iota_single_apply .tc S32x128x8 32 2 iota_S32x128x8_d2_w32 (ix3 p j e)

end Cert.KernelIdeal.KValue

end
-- ==== Proof.BlockFn.lean ====
/-
  The output block the body leaves at a grid point, as ONE function of the point's input blocks.
  At grid point (b, t) the body is handed the batch's node block H [1, 128, 128], the adjacency block A [1, 32, 128] of
  receivers 32t … 32t+31, the padded edge-type table T [8, 768], the two weight blocks W [256, 768] and the bias row
  [1, 768]; for receiver p, sender j and channel o it leaves
      ((∑ e, [class(A[p, j]) = e] · T[e, o]) + (∑ c, H[j, c] · W[128 + c, o]) + (∑ c, H[32t + p, c] · W[c, o]))
        · (1 − [class(A[p, j]) = 0]) + bias[o].
  Each of the four stores of the body's loop restricts this one function, and together they tile the block.
-/
import proofs.«428032_j59949153517801_3_alg».proof.Proof.TripPiece
import proofs.«428032_j59949153517801_3_alg».proof.Proof.Payloads
import proofs.«428032_j59949153517801_3_alg».proof.Proof.Spec
import Idealize.ShloMosaic.Lib.ValueIdx
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

/-- The one-hot indicator of an adjacency word's class among the 8 padded classes. -/
def hot (a : BitVec 32) (e : Fin 8) : EReal := if e.val = (Cert.Msg.erow a).val then 1 else 0

/-- The block's value at receiver p (of tile t), sender j, channel o. -/
def blkAt (t : Fin 4) (x0 : S1x128x128.Idx → EReal) (x1 : S1x32x128.Idx → BitVec 32) (x2 : S8x768.Idx → EReal)
    (x3 : S256x768.Idx → EReal) (x4 : S1x768.Idx → EReal) (p : Fin 32) (j : Fin 128) (o : Fin 768) : EReal :=
  (((∑ e : Fin 8, hot (x1 (ix3 (0 : Fin 1) p j)) e * x2 (ix2 e o))
      + (∑ cc : Fin 128, x0 (ix3 (0 : Fin 1) j cc) * x3 (ix2 (⟨128 + cc.val, by omega⟩ : Fin 256) o)))
      + (∑ cc : Fin 128, x0 (ix3 (0 : Fin 1) (⟨32 * t.val + p.val, by omega⟩ : Fin 128) cc) * x3 (ix2 (⟨cc.val, by omega⟩ : Fin 256) o)))
    * (1 - hot (x1 (ix3 (0 : Fin 1) p j)) (0 : Fin 8))
    + x4 (ix2 (0 : Fin 1) o)

/-- The whole block. -/
def Gblk (t : Fin 4) (x0 : S1x128x128.Idx → EReal) (x1 : S1x32x128.Idx → BitVec 32) (x2 : S8x768.Idx → EReal)
    (x3 : S256x768.Idx → EReal) (x4 : S1x768.Idx → EReal) : S1x32x128x768.Idx → EReal :=
  fun y => blkAt t x0 x1 x2 x3 x4 ⟨(y 1).val, (y 1).isLt⟩ ⟨(y 2).val, (y 2).isLt⟩ ⟨(y 3).val, (y 3).isLt⟩

section
variable (c : Dev nD) (i : grid0.Coords)
  (arg2 : Memref sig .tc .vmem S1x128x128 .bf16) (harg2 : arg2.IsWhole) (arg3 : Memref sig .tc .vmem S1x32x128 .i32) (harg3 : arg3.IsWhole)
  (arg4 : Memref sig .tc .vmem S8x768 .f32) (harg4 : arg4.IsWhole) (arg5 : Memref sig .tc .vmem S256x768 .bf16) (harg5 : arg5.IsWhole)
  (arg6 : Memref sig .tc .vmem S1x768 .f32) (harg6 : arg6.IsWhole) (arg7 : Memref sig .tc .vmem S1x32x128x768 .f32) (harg7 : arg7.IsWhole)
  (arg8 : Memref sig .tc .vmem S32x128x8 .f32) (harg8 : arg8.IsWhole)
  (x0 : S1x128x128.Idx → EReal) (x1 : S1x32x128.Idx → BitVec 32) (x2 : S8x768.Idx → EReal) (x3 : S256x768.Idx → EReal) (x4 : S1x768.Idx → EReal)

/-- A load through a rectangle of a whole memref holding `X` reads `X` at the rectangle's own indices. -/
theorem readAt_unread_apply {S : Shape} {e : EltTy} (mr : Memref sig .tc .vmem S e) (h : mr.IsWhole)
    (X : S.Idx → Elt Ideal e) (r : Rect S) (z : r.shape.Idx) :
    View.readAt (Elt Ideal) mr.view r.toLoadRect (h.unread X) z = X (r.emb z) := by
  rw [View.readAt_apply, h.read_unread]; rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangle that is the whole shape places every index at itself. -/
theorem emb_unit_zero {S : Shape} {off : Fin S.rank → Nat} (h : off = fun _ => 0) (inb : ∀ a, off a + S.size a ≤ S.size a)
    (z : S.Idx) : (Rect.unit (s := S) off S.size inb).emb z = z := by
  subst h; funext a; apply Fin.ext; rw [Rect.emb_apply]; simp only [Rect.off_unit, Rect.stride_unit]; omega

/-- The loop runs at most four trips. -/
theorem trip_lt (k : Fin k0_t1_loop.trips) : k.val < 4 := Nat.lt_of_lt_of_le k.isLt k0_t1_abs.2.1

/-- The table as loaded is the staged table. -/
theorem ldT_eq : k0_pay6 (F := Ideal) (ldT arg4 harg4 x2) = x2 := by
  rw [pay6_eq]
  funext z
  exact (readAt_unread_apply arg4 harg4 x2 (Rect.unit (s := S8x768) ![0, 0] S8x768.size inb_S8x768_S8x768_0_0) z).trans
    (congrArg x2 (emb_unit_zero hz2 inb_S8x768_S8x768_0_0 z))

/-- The bias as loaded, re-laid, at channel o. -/
theorem ldB_apply (o : Fin 768) : k0_pay5 (F := Ideal) (ldB arg6 harg6 x4) (ix3 (0 : Fin 1) (0 : Fin 1) o) = x4 (ix2 (0 : Fin 1) o) := by
  rw [pay5_apply]
  exact (readAt_unread_apply arg6 harg6 x4 (Rect.unit (s := S1x768) ![0, 0] S1x768.size inb_S1x768_S1x768_0_0) (ix2 (0 : Fin 1) o)).trans
    (congrArg x4 (emb_unit_zero hz2 inb_S1x768_S1x768_0_0 (ix2 (0 : Fin 1) o)))

/-- The second weight block as loaded: rows 128 + c of the staged block. -/
theorem ldW2_apply (cc : Fin 128) (o : Fin 768) :
    k0_pay2 (F := Ideal) (ldW2 arg5 harg5 x3) (ix2 cc o) = x3 (ix2 (⟨128 + cc.val, by omega⟩ : Fin 256) o) := by
  rw [pay2_eq]
  refine (readAt_unread_apply arg5 harg5 x3 _ _).trans ?_
  congr 1
  funext a; apply Fin.ext
  match a with
  | ⟨0, _⟩ => show 128 + 1 * cc.val = 128 + cc.val; omega
  | ⟨1, _⟩ => show 0 + 1 * o.val = o.val; omega

/-- The first weight block as loaded: rows c of the staged block. -/
theorem ldW1_apply (cc : Fin 128) (o : Fin 768) :
    ldW1 (F := Ideal) arg5 harg5 x3 (ix2 cc o) = x3 (ix2 (⟨cc.val, by omega⟩ : Fin 256) o) := by
  refine (readAt_unread_apply arg5 harg5 x3 _ _).trans ?_
  congr 1
  funext a; apply Fin.ext
  match a with
  | ⟨0, _⟩ => show 0 + 1 * cc.val = cc.val; omega
  | ⟨1, _⟩ => show 0 + 1 * o.val = o.val; omega

/-- The receivers' node rows as loaded: rows 32·t + p of the staged node block. -/
theorem ldHi_apply (t : Fin 4) (ht : (i 1).val = t.val) (p : Fin 32) (cc : Fin 128) :
    ldHi (F := Ideal) i arg2 harg2 x0 (ix3 (0 : Fin 1) p cc) = x0 (ix3 (0 : Fin 1) (⟨32 * t.val + p.val, by omega⟩ : Fin 128) cc) := by
  refine (readAt_unread_apply arg2 harg2 x0 _ _).trans ?_
  congr 1
  funext a; apply Fin.ext
  rw [Rect.emb_apply]
  simp only [Rect.off_unit, Rect.stride_unit, k0_off1_eq]
  match a with
  | ⟨0, _⟩ => show 0 + 1 * 0 = 0; omega
  | ⟨1, _⟩ => show 32 * (i 1).val + 1 * p.val = 32 * t.val + p.val; omega
  | ⟨2, _⟩ => show 0 + 1 * cc.val = cc.val; omega

/-- The receiver's term: the 128-term product of the receiver's node row against the first weight block. -/
theorem term1_apply (t : Fin 4) (ht : (i 1).val = t.val) (p : Fin 32) (o : Fin 768) :
    k0_pay3 (F := Ideal) (ldHi i arg2 harg2 x0) (ldW1 arg5 harg5 x3) (ix2 p o)
      = ∑ cc : Fin 128, x0 (ix3 (0 : Fin 1) (⟨32 * t.val + p.val, by omega⟩ : Fin 128) cc) * x3 (ix2 (⟨cc.val, by omega⟩ : Fin 256) o) := by
  rw [pay3_apply]
  refine Finset.sum_congr rfl fun cc _ => ?_
  rw [ldHi_apply i arg2 harg2 x0 t ht p cc, ldW1_apply arg5 harg5 x3 cc o]

/-- The senders' node rows of trip k as loaded: rows 32·k + q of the staged node block. -/
theorem ldHj_apply (k : Fin k0_t1_loop.trips) (q : Fin 32) (cc : Fin 128) :
    View.readAt (Elt Ideal) arg2.view (Rect.unit (s := S1x128x128) (k0_off3 k) S1x32x128.size (k0_off3_inb k)).toLoadRect (harg2.unread x0) (ix3 (0 : Fin 1) q cc)
      = x0 (ix3 (0 : Fin 1) (⟨32 * k.val + q.val, by have := trip_lt k; omega⟩ : Fin 128) cc) := by
  refine (readAt_unread_apply arg2 harg2 x0 _ _).trans ?_
  congr 1
  funext a; apply Fin.ext
  rw [Rect.emb_apply]
  simp only [Rect.off_unit, Rect.stride_unit, k0_off3_eq]
  match a with
  | ⟨0, _⟩ => show 0 + 1 * 0 = 0; omega
  | ⟨1, _⟩ => show 32 * k.val + 1 * q.val = 32 * k.val + q.val; omega
  | ⟨2, _⟩ => show 0 + 1 * cc.val = cc.val; omega

/-- The adjacency block as loaded is the staged block. -/
theorem ldAdj_eq : ldAdj (F := Ideal) arg3 harg3 x1 = x1 := by
  funext z
  exact (readAt_unread_apply arg3 harg3 x1 (Rect.unit (s := S1x32x128) ![0, 0, 0] S1x32x128.size inb_S1x32x128_S1x32x128_0_0_0) z).trans
    (congrArg x1 (emb_unit_zero hz3 inb_S1x32x128_S1x32x128_0_0_0 z))

/-- The scratch rows of trip k as loaded: the one-hot indicator of the adjacency word of (p, 32·k + q). -/
theorem ldHot_apply (hr : ∀ (p : Fin 32) (j : Fin 128), 0 ≤ (x1 (ix3 (0 : Fin 1) p j)).toInt ∧ (x1 (ix3 (0 : Fin 1) p j)).toInt < 5)
    (k : Fin k0_t1_loop.trips) (p q : Fin 32) (e : Fin 8) :
    View.readAt (Elt Ideal) arg8.view (Rect.unit (s := S32x128x8) (k0_off2 k) S32x32x8.size (k0_off2_inb k)).toLoadRect (scrAfter (F := Ideal) arg3 harg3 arg8 x1) (ix3 p q e)
      = hot (x1 (ix3 (0 : Fin 1) p (⟨32 * k.val + q.val, by have := trip_lt k; omega⟩ : Fin 128))) e := by
  have hk := trip_lt k
  unfold scrAfter
  rw [View.readAt_writes_junk_eq_canon, View.canon_unit_zero hz3]
  have e1 : (Rect.unit (s := S32x128x8) (k0_off2 k) S32x32x8.size (k0_off2_inb k)).toLoadRect.idx (ix3 p q e)
      = ix3 p (⟨32 * k.val + q.val, by omega⟩ : Fin 128) e := by
    funext a; apply Fin.ext
    show (k0_off2 k a) + 1 * ((ix3 p q e) a).val = _
    rw [k0_off2_eq]
    match a with
    | ⟨0, _⟩ => show 0 + 1 * p.val = p.val; omega
    | ⟨1, _⟩ => show 32 * k.val + 1 * q.val = 32 * k.val + q.val; omega
    | ⟨2, _⟩ => show 0 + 1 * e.val = e.val; omega
  show k0_pay4 (F := Ideal) (ldAdj arg3 harg3 x1) ((Rect.unit (s := S32x128x8) (k0_off2 k) S32x32x8.size (k0_off2_inb k)).toLoadRect.idx (ix3 p q e)) = _
  rw [e1, ldAdj_eq]
  exact pay4_apply x1 p _ e (hr p _)

/-- The run's output block is the block function, where every adjacency word of the block is an edge type. -/
theorem out0_block (t : Fin 4) (ht : (i 1).val = t.val)
    (hr : ∀ (p : Fin 32) (j : Fin 128), 0 ≤ (x1 (ix3 (0 : Fin 1) p j)).toInt ∧ (x1 (ix3 (0 : Fin 1) p j)).toInt < 5) :
    out0_A_5 (F := Ideal) c i arg2 harg2 arg3 harg3 arg4 harg4 arg5 harg5 arg6 harg6 arg7 harg7 arg8 harg8 x0 x1 x2 x3 x4
      = Gblk t x0 x1 x2 x3 x4 := by
  funext y
  unfold out0_A_5
  refine View.read_writes_apply_of_pieces _ _ (Gblk t x0 x1 x2 x3 x4) _ (fun pc hpc x => ?_) y
    (cover0_A_5 (F := Ideal) c i arg2 harg2 arg3 harg3 arg4 harg4 arg5 harg5 arg6 harg6 arg7 harg7 arg8 harg8 x0 x1 x2 x3 x4 y)
  obtain ⟨k, rfl⟩ := run_piece (F := Ideal) c i arg2 harg2 arg3 harg3 arg4 harg4 arg5 harg5 arg6 harg6 arg7 harg7 arg8 harg8 x0 x1 x2 x3 x4 pc hpc
  clear hpc
  unfold tripStore at x ⊢
  dsimp only at x ⊢
  obtain ⟨u, p, q, o, rfl⟩ : ∃ (u : Fin 1) (p q : Fin 32) (o : Fin 768), x = ix4 u p q o := ⟨x 0, x 1, x 2, x 3, eq_ix4 x⟩
  obtain rfl : u = 0 := Subsingleton.elim _ _
  have hk := trip_lt k
  have e4 : (Rect.unit (s := S1x32x128x768) (k0_off4 k) S1x32x32x768.size (k0_off4_inb k)).emb (ix4 (0 : Fin 1) p q o)
      = ix4 (0 : Fin 1) p (⟨32 * k.val + q.val, by omega⟩ : Fin 128) o := by
    funext a; apply Fin.ext
    rw [Rect.emb_apply]
    simp only [Rect.off_unit, Rect.stride_unit, k0_off4_eq]
    match a with
    | ⟨0, _⟩ => show 0 + 1 * 0 = 0; omega
    | ⟨1, _⟩ => show 0 + 1 * p.val = p.val; omega
    | ⟨2, _⟩ => show 32 * k.val + 1 * q.val = 32 * k.val + q.val; omega
    | ⟨3, _⟩ => show 0 + 1 * o.val = o.val; omega
  rw [e4]
  show _ = blkAt t x0 x1 x2 x3 x4 p (⟨32 * k.val + q.val, by omega⟩ : Fin 128) o
  refine (pay1_apply _ _ _ _ _ _ p q o).trans ?_
  unfold blkAt
  rw [ldT_eq arg4 harg4 x2, ldB_apply arg6 harg6 x4 o, term1_apply i arg2 harg2 arg5 harg5 x0 x3 t ht p o]
  simp only [ldHot_apply arg3 harg3 arg8 x1 hr k p q, ldHj_apply arg2 harg2 x0 k q, ldW2_apply arg5 harg5 x3]
end

end Cert.KernelIdeal.KValue

end
-- ==== Proof.LibScatterSet.lean ====
/-
  A block of rows set into a larger array, read at an index. jnp's `zeros.at[:R'].set(u)` over an [R, C] array and
  an [R', C] update prints as a `stablehlo.scatter` with ONE scatter index (the start row), both update axes window
  axes, no inserted axis, and the body returning the update. With the start row 0, result element (r, c) is the
  update's (r, c) on the first R' rows and the operand's own element below them.
-/
import Idealize.ShloMosaic.PureOps
import Idealize.ShloMosaic.Lib.ValueIdx

noncomputable section

namespace Cert.Lib

open Idealize.ShloMosaic Idealize.ShloMosaic.ValueIdx

/-! ## The fold, one step at a time -/

/-- One step of the scatter's fold over an abstract list of update positions: position `n` lands at `p n` (or nowhere),
    and where it lands the body `f` combines the element already there with the update's value `v n`. -/
private def scatStep {ι κ β : Type} [DecidableEq ι] (p : κ → Option ι) (f : β → β → β) (v : κ → β)
    (r : ι → β) (n : κ) : ι → β :=
  match p n with
  | some i => fun i' => if i' = i then f (r i) (v n) else r i'
  | none => r

/-- If no position of the list lands on `i`, the fold leaves the element at `i` as it was. -/
private theorem foldl_scatStep_miss {ι κ β : Type} [DecidableEq ι] (p : κ → Option ι) (f : β → β → β)
    (v : κ → β) (i : ι) :
    ∀ (l : List κ) (r : ι → β), (∀ n ∈ l, p n ≠ some i) → l.foldl (scatStep p f v) r i = r i
  | [], _, _ => rfl
  | n :: l, r, h => by
    rw [List.foldl_cons, foldl_scatStep_miss p f v i l _ (fun m hm => h m (List.mem_cons_of_mem _ hm))]
    have hn := h n List.mem_cons_self
    unfold scatStep
    cases hp : p n with
    | none => rfl
    | some i₀ =>
      have hne : i ≠ i₀ := fun e => hn (by rw [hp, e])
      exact if_neg hne

/-- If exactly one position `n₀` of the list lands on `i` and the body returns the update, the fold's element at `i`
    is that position's value: the steps before it do not matter (it overwrites), the steps after it miss `i`. -/
private theorem foldl_scatStep_hit {ι κ β : Type} [DecidableEq ι] (p : κ → Option ι) (v : κ → β)
    (i : ι) (n₀ : κ) (h₀ : p n₀ = some i) :
    ∀ (l : List κ) (r : ι → β), n₀ ∈ l → (∀ n ∈ l, p n = some i → n = n₀) →
      l.foldl (scatStep p (fun _ b => b) v) r i = v n₀
  | [], _, hm, _ => absurd hm List.not_mem_nil
  | n :: l, r, hm, hu => by
    rw [List.foldl_cons]
    by_cases hl : n₀ ∈ l
    · exact foldl_scatStep_hit p v i n₀ h₀ l _ hl (fun m hm' => hu m (List.mem_cons_of_mem _ hm'))
    · have hn : n₀ = n := by
        rcases List.mem_cons.1 hm with e | e
        · exact e
        · exact absurd e hl
      subst hn
      rw [foldl_scatStep_miss p _ v i l _
        (fun m hm' e => hl ((hu m (List.mem_cons_of_mem _ hm') e) ▸ hm'))]
      unfold scatStep
      rw [h₀]
      exact if_pos rfl

/-! ## Where an update index lands -/

/-- The scatter indices have one element, so every index into them is that one. -/
private theorem si_unique (i : (⟨1, ![1]⟩ : Shape).Idx) : i = ix1 (0 : Fin 1) := by
  rw [eq_ix1 i]; congr 1; exact Subsingleton.elim (α := Fin 1) _ _

/-- Every window starts at 0 on both axes: a named axis reads the one scatter index, which is 0; an unnamed axis
    starts at 0 by definition. -/
private theorem start_zero {R R' C w : Nat}
    (d : ScatterDims ⟨2, ![R, C]⟩ ⟨1, ![1]⟩ ⟨2, ![R', C]⟩)
    (idx : IVec ⟨1, ![1]⟩ w) (hidx : (idx (ix1 (0 : Fin 1))).toInt = 0)
    (j : (⟨2, ![R', C]⟩ : Shape).Idx) (a : Fin 2) : d.start j idx a = 0 := by
  unfold ScatterDims.start
  split
  · rw [si_unique (d.siIdx j _)]; exact hidx
  · rfl

/-- With no inserted axis both operand axes are kept, in order. -/
private theorem kept_nil {R C : Nat} : (⟨2, ![R, C]⟩ : Shape).kept [] = [0, 1] := rfl

/-- With no inserted axis and the update's axes `[0, 1]` its window axes, the window coordinate on each operand axis
    is the update index's coordinate on the same axis. -/
private theorem window_eq {R R' C : Nat}
    (d : ScatterDims ⟨2, ![R, C]⟩ ⟨1, ![1]⟩ ⟨2, ![R', C]⟩)
    (huw : d.updateWindowDims = [0, 1]) (hiw : d.insertedWindowDims = [])
    (j : (⟨2, ![R', C]⟩ : Shape).Idx) (a : Fin 2) : d.window j a = (j a).val := by
  obtain ⟨uwd, iwd, sdto, ivd, wf⟩ := d
  simp only at huw hiw
  subst huw hiw
  unfold ScatterDims.window
  match a with
  | ⟨0, _⟩ =>
    have h0 : (0 : Fin 2) ∈ (⟨2, ![R, C]⟩ : Shape).kept [] := by rw [kept_nil]; simp
    exact (dif_pos h0).trans rfl
  | ⟨1, _⟩ =>
    have h1 : (1 : Fin 2) ∈ (⟨2, ![R, C]⟩ : Shape).kept [] := by rw [kept_nil]; simp
    exact (dif_pos h1).trans rfl

/-- Every update index lands inside the array, at the index with the same two coordinates. -/
private theorem resultIdx_eq {R R' C w : Nat} (hR : R' ≤ R)
    (d : ScatterDims ⟨2, ![R, C]⟩ ⟨1, ![1]⟩ ⟨2, ![R', C]⟩)
    (huw : d.updateWindowDims = [0, 1]) (hiw : d.insertedWindowDims = [])
    (idx : IVec ⟨1, ![1]⟩ w) (hidx : (idx (ix1 (0 : Fin 1))).toInt = 0)
    (j : (⟨2, ![R', C]⟩ : Shape).Idx) :
    ∃ i, d.resultIdx? j idx = some i ∧ ∀ a : Fin 2, (i a).val = (j a).val := by
  have hs := fun a => start_zero d idx hidx j a
  have hw := fun a => window_eq d huw hiw j a
  have hlt : ∀ a : Fin 2, (j a).val < (⟨2, ![R, C]⟩ : Shape).size a := by
    intro a
    match a with
    | ⟨0, _⟩ => exact lt_of_lt_of_le (idx2_lt0 j) hR
    | ⟨1, _⟩ => exact idx2_lt1 j
  unfold ScatterDims.resultIdx?
  split
  · refine ⟨_, rfl, fun a => ?_⟩
    show (d.start j idx a + d.window j a).toNat = (j a).val
    rw [hs a, hw a]; simp
  · rename_i h
    refine absurd (fun a => ?_) h
    rw [hs a, hw a]
    have := hlt a
    constructor <;> omega

/-- The scatter that sets an [R', C] block at start row 0 of an [R, C] array reads, at (r, c), the block's (r, c)
    when `r < R'` and the array's own (r, c) otherwise. -/
theorem scatter_set_rows {α : Type} {R R' C w : Nat} (hR : R' ≤ R)
    (d : ScatterDims ⟨2, ![R, C]⟩ ⟨1, ![1]⟩ ⟨2, ![R', C]⟩)
    (huw : d.updateWindowDims = [0, 1]) (hiw : d.insertedWindowDims = [])
    (hsd : d.scatterDimsToOperandDims = [0]) (hivd : d.indexVectorDim = 0)
    (x : (⟨2, ![R, C]⟩ : Shape).Idx → α) (idx : IVec ⟨1, ![1]⟩ w)
    (hidx : (idx (ix1 (0 : Fin 1))).toInt = 0) (upd : (⟨2, ![R', C]⟩ : Shape).Idx → α)
    (r : Fin R) (cc : Fin C) :
    Host.scatter d (fun _ b => b) x idx upd (ix2 r cc)
      = if h : r.val < R' then upd (ix2 ⟨r.val, h⟩ cc) else x (ix2 r cc) := by
  have hres := resultIdx_eq hR d huw hiw idx hidx
  have hfold : Host.scatter d (fun _ b => b) x idx upd
      = (List.finRange (⟨2, ![R', C]⟩ : Shape).numel).foldl
          (scatStep (fun n => d.resultIdx? ((⟨2, ![R', C]⟩ : Shape).rowMajor.symm n) idx) (fun _ b => b)
            (fun n => upd ((⟨2, ![R', C]⟩ : Shape).rowMajor.symm n))) x := by
    unfold Host.scatter
    congr 1
    funext r n
    unfold scatStep
    beta_reduce
    cases d.resultIdx? ((⟨2, ![R', C]⟩ : Shape).rowMajor.symm n) idx <;> rfl
  rw [hfold]
  split
  · -- a row of the block: exactly one update index lands here, the one with the same coordinates
    rename_i h
    have h0 : (fun n => d.resultIdx? ((⟨2, ![R', C]⟩ : Shape).rowMajor.symm n) idx)
        ((⟨2, ![R', C]⟩ : Shape).rowMajor (ix2 ⟨r.val, h⟩ cc)) = some (ix2 r cc) := by
      obtain ⟨i, hi, hia⟩ := hres ((⟨2, ![R', C]⟩ : Shape).rowMajor.symm
        ((⟨2, ![R', C]⟩ : Shape).rowMajor (ix2 ⟨r.val, h⟩ cc)))
      show d.resultIdx? _ idx = _
      rw [hi]; congr 1
      rw [Equiv.symm_apply_apply] at hia
      funext a
      apply Fin.ext
      rw [hia a]
      match a with
      | ⟨0, _⟩ => rfl
      | ⟨1, _⟩ => rfl
    have hu : ∀ n ∈ List.finRange (⟨2, ![R', C]⟩ : Shape).numel,
        (fun n => d.resultIdx? ((⟨2, ![R', C]⟩ : Shape).rowMajor.symm n) idx) n = some (ix2 r cc) →
          n = (⟨2, ![R', C]⟩ : Shape).rowMajor (ix2 ⟨r.val, h⟩ cc) := by
      intro n _ hn
      obtain ⟨i, hi, hia⟩ := hres ((⟨2, ![R', C]⟩ : Shape).rowMajor.symm n)
      have hie : i = ix2 r cc := Option.some.inj (hi.symm.trans hn)
      have hj : (⟨2, ![R', C]⟩ : Shape).rowMajor.symm n = ix2 ⟨r.val, h⟩ cc := by
        funext a
        apply Fin.ext
        rw [← hia a, hie]
        match a with
        | ⟨0, _⟩ => rfl
        | ⟨1, _⟩ => rfl
      rw [← hj, Equiv.apply_symm_apply]
    refine (foldl_scatStep_hit (fun n => d.resultIdx? ((⟨2, ![R', C]⟩ : Shape).rowMajor.symm n) idx)
      (fun n => upd ((⟨2, ![R', C]⟩ : Shape).rowMajor.symm n)) (ix2 r cc)
      ((⟨2, ![R', C]⟩ : Shape).rowMajor (ix2 ⟨r.val, h⟩ cc)) h0 _ x (List.mem_finRange _) hu).trans ?_
    show upd ((⟨2, ![R', C]⟩ : Shape).rowMajor.symm ((⟨2, ![R', C]⟩ : Shape).rowMajor (ix2 ⟨r.val, h⟩ cc))) = _
    rw [Equiv.symm_apply_apply]
  · -- a row below the block: every update index lands on a row above this one
    rename_i h
    apply foldl_scatStep_miss
    intro n _ hn
    obtain ⟨i, hi, hia⟩ := hres ((⟨2, ![R', C]⟩ : Shape).rowMajor.symm n)
    have hie : i = ix2 r cc := Option.some.inj (hi.symm.trans hn)
    have h0 := hia 0
    rw [hie] at h0
    have hr : (ix2 r cc (0 : Fin 2)).val = r.val := rfl
    have hlt := idx2_lt0 ((⟨2, ![R', C]⟩ : Shape).rowMajor.symm n)
    omega

end Cert.Lib

end
-- ==== Proof.HostPrefix.lean ====
/-
  The arrays the kernel's region finds, as functions of the arguments, read at an index over the extended reals:
  the node embeddings (the lookup, its change of format the identity), the first two blocks of the transposed weight,
  the edge-type table through the third block padded with zero rows to 8, and the bias as a row.
-/
import proofs.«428032_j59949153517801_3_alg».proof.Proof.Gen.KernelIdeal.Frame
import proofs.«428032_j59949153517801_3_alg».proof.Proof.Spec
import proofs.«428032_j59949153517801_3_alg».proof.Proof.LibScatterSet
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostValue

open Cert.KernelIdeal Cert.KernelIdeal.Gen Idealize.ShloMosaic Idealize.ShloMosaic.TcCoe Idealize.ShloMosaic.ValueIdx Idealize.SL.Sem

/-- The node embeddings as the kernel's program looks them up: a negative node type wrapped by 16, then the rows of
    the table gathered. -/
def hnodeK (x0 : S8x128.Idx → BitVec 32) (x2 : S16x128.Idx → EReal) : S8x128x128.Idx → EReal :=
  Host.gather (α := EReal) gather_S16x128_S8x128x1_S8x128x128_2_0_n_n_0_2_1128 x2
    (broadcastInDim S8x128x1 ![0, 1] bcast_S8x128_S8x128x1_0_1
      (select (cmpi .slt x0 (broadcastInDim S8x128 ![] bcast_S_S8x128 (constantI S_ 32 0#32)))
        (addi x0 (broadcastInDim S8x128 ![] bcast_S_S8x128 (constantI S_ 32 16#32))) x0))

variable (m : (ℓ : Loc nD τ sig) → Buf (Elt Ideal) ℓ)

/-! The arguments, each named at its literal type. -/
/-- The node types, [8, 128]. -/
abbrev aX (c : Dev nD) : S8x128.Idx → BitVec 32 := m ((c : Thread nD τ).loc main_arg0)
/-- The adjacency words, [8, 128, 128]. -/
abbrev aAdj (c : Dev nD) : S8x128x128.Idx → BitVec 32 := m ((c : Thread nD τ).loc main_arg1)
/-- The node-type embedding table, [16, 128]. -/
abbrev aEn (c : Dev nD) : S16x128.Idx → EReal := m ((c : Thread nD τ).loc main_arg2)
/-- The edge-type embedding table, [5, 128]. -/
abbrev aEe (c : Dev nD) : S5x128.Idx → EReal := m ((c : Thread nD τ).loc main_arg3)
/-- The weight, [768, 384]. -/
abbrev aW (c : Dev nD) : S768x384.Idx → EReal := m ((c : Thread nD τ).loc main_arg4)
/-- The bias, [768]. -/
abbrev aBias (c : Dev nD) : S768.Idx → EReal := m ((c : Thread nD τ).loc main_arg5)

/-! The arrays the region's five input windows stage, each named at its literal type. -/
/-- Window 0: the node embeddings, [8, 128, 128]. -/
abbrev rH (c : Dev nD) : S8x128x128.Idx → EReal := V m c main_v7
/-- Window 1: the adjacency words. -/
abbrev rAdj (c : Dev nD) : S8x128x128.Idx → BitVec 32 := V m c main_arg1
/-- Window 2: the padded edge-type table, [8, 768]. -/
abbrev rT (c : Dev nD) : S8x768.Idx → EReal := V m c main_v16
/-- Window 3: the first two blocks of the transposed weight, [256, 768]. -/
abbrev rW12 (c : Dev nD) : S256x768.Idx → EReal := V m c main_v10
/-- Window 4: the bias row, [1, 768]. -/
abbrev rB (c : Dev nD) : S1x768.Idx → EReal := V m c main_v17

/-- Window 1's array is the argument: no host operation writes it. -/
theorem rAdj_eq (c : Dev nD) : rAdj m c = aAdj m c := V_main_arg1 m c

/-- Window 0's array: the node embeddings (the change of format is the identity). -/
theorem rH_eq (c : Dev nD) : rH m c = hnodeK (aX m c) (aEn m c) := by
  -- the operations composed: the lookup, then the change of format
  have e : rH m c = (truncf FTy.bf16
      (Host.gather (α := EReal) gather_S16x128_S8x128x1_S8x128x128_2_0_n_n_0_2_1128 (m (c, Proc.tc.devRef main_arg2))
        (broadcastInDim S8x128x1 ![0, 1] bcast_S8x128_S8x128x1_0_1
          (select
            (cmpi CmpIPredicate.slt (m (c, Proc.tc.devRef main_arg0))
              (broadcastInDim S8x128 ![] bcast_S_S8x128 (constantI S_ 32 0#32)))
            (addi (m (c, Proc.tc.devRef main_arg0)) (broadcastInDim S8x128 ![] bcast_S_S8x128 (constantI S_ 32 16#32)))
            (m (c, Proc.tc.devRef main_arg0)))))
      bitsLt_bf16_f32 : FVec Ideal S8x128x128 .bf16) := by
    dsimp only [rH, Gen.V, Gen.hostOps0]
    after_results
  rw [e]
  -- over the extended reals the change of format is the identity at every index
  funext j
  rfl

/-- Window 3's array: rows 0–255 of the transposed weight. -/
theorem rW12_apply (c : Dev nD) (r : Fin 256) (o : Fin 768) :
    rW12 m c (ix2 r o) = aW m c (ix2 o ⟨r.val, by omega⟩) := by
  -- the operations composed: the transpose, the change of format, then rows 0–255
  have e : rW12 m c = (extractStridedSlice S256x768 ![0, 0]
      (truncf FTy.bf16 (transpose S384x768 [1, 0] (m (c, Proc.tc.devRef main_arg4)) transposes_S768x384_S384x768_1_0)
        bitsLt_bf16_f32 : FVec Ideal S384x768 .bf16) slices_S384x768_S256x768_0_0) := by
    dsimp only [rW12, Gen.V, Gen.hostOps0]
    after_results
  rw [e]
  -- row r of the slice is row 0 + r of the transposed weight, whose (r, o) is the weight's (o, r)
  rw [slice2_axis0_apply 0 _ slices_S384x768_S256x768_0_0 r o ⟨r.val, by omega⟩ (by simp)]
  rw [truncf_apply]
  exact transpose_ix2_apply _ _ _ _

/-! The edge-type product's two operand indices, axis by axis: output axis 0 is the left operand's free axis, output
    axis 1 the right operand's, and the one contracted axis is the left's axis 1 and the right's axis 0. -/
private theorem lhs_dot_0 (i : S5x768.Idx) (q : dot_S5x128_S128x768_S5x768_1_0_0_1_n_n.contr.Idx) :
    (dot_S5x128_S128x768_S5x768_1_0_0_1_n_n.lhsIdx i q 0).val = (i 0).val := by
  unfold DotDims.lhsIdx
  rw [dif_neg (show ¬(0 : Fin S5x128.rank) ∈ dot_S5x128_S128x768_S5x768_1_0_0_1_n_n.lhsBatch by decide), dif_pos (show (0 : Fin S5x128.rank) ∈ dot_S5x128_S128x768_S5x768_1_0_0_1_n_n.lhsNonContracting by decide)]
  rfl
private theorem lhs_dot_1 (i : S5x768.Idx) (q : dot_S5x128_S128x768_S5x768_1_0_0_1_n_n.contr.Idx) :
    (dot_S5x128_S128x768_S5x768_1_0_0_1_n_n.lhsIdx i q 1).val = (q ⟨0, by decide⟩).val :=
  dot_S5x128_S128x768_S5x768_1_0_0_1_n_n.lhsIdx_val_of_single rfl i q
private theorem rhs_dot_0 (i : S5x768.Idx) (q : dot_S5x128_S128x768_S5x768_1_0_0_1_n_n.contr.Idx) :
    (dot_S5x128_S128x768_S5x768_1_0_0_1_n_n.rhsIdx i q 0).val = (q ⟨0, by decide⟩).val :=
  dot_S5x128_S128x768_S5x768_1_0_0_1_n_n.rhsIdx_val_of_single rfl i q
private theorem rhs_dot_1 (i : S5x768.Idx) (q : dot_S5x128_S128x768_S5x768_1_0_0_1_n_n.contr.Idx) :
    (dot_S5x128_S128x768_S5x768_1_0_0_1_n_n.rhsIdx i q 1).val = (i 1).val := by
  unfold DotDims.rhsIdx
  rw [dif_neg (show ¬(1 : Fin S128x768.rank) ∈ dot_S5x128_S128x768_S5x768_1_0_0_1_n_n.rhsBatch by decide), dif_pos (show (1 : Fin S128x768.rank) ∈ dot_S5x128_S128x768_S5x768_1_0_0_1_n_n.rhsNonContracting by decide)]
  rfl

/-- Over the extended reals the [5, 128] × [128, 768] product reads, at (e, o), the sum over the contracted axis of the
    operands' products. -/
private theorem dot_edge_apply (l : FVec Ideal S5x128 .bf16) (r : FVec Ideal S128x768 .bf16) (e : Fin 5) (o : Fin 768) :
    Host.dotGeneral (F := Ideal) dot_S5x128_S128x768_S5x768_1_0_0_1_n_n none l r (ix2 e o)
      = ∑ k : Fin 128, l (ix2 e k) * r (ix2 k o) := by
  simp only [Host.dotGeneral]
  rw [Ideal.dotGeneral_apply, ← Equiv.sum_comp (ValueIdx.contrEquiv1 dot_S5x128_S128x768_S5x768_1_0_0_1_n_n 128 rfl rfl).symm]
  refine Finset.sum_congr rfl fun k _ => ?_
  have hk := ValueIdx.contrEquiv1_symm_val dot_S5x128_S128x768_S5x768_1_0_0_1_n_n 128 rfl rfl k
  have el : dot_S5x128_S128x768_S5x768_1_0_0_1_n_n.lhsIdx (ix2 e o) ((ValueIdx.contrEquiv1 dot_S5x128_S128x768_S5x768_1_0_0_1_n_n 128 rfl rfl).symm k) = ix2 e k := funext fun a => Fin.ext (by
    match a with
    | ⟨0, _⟩ => exact lhs_dot_0 _ _
    | ⟨1, _⟩ => exact (lhs_dot_1 _ _).trans hk)
  have er : dot_S5x128_S128x768_S5x768_1_0_0_1_n_n.rhsIdx (ix2 e o) ((ValueIdx.contrEquiv1 dot_S5x128_S128x768_S5x768_1_0_0_1_n_n 128 rfl rfl).symm k) = ix2 k o := funext fun a => Fin.ext (by
    match a with
    | ⟨0, _⟩ => exact (rhs_dot_0 _ _).trans hk
    | ⟨1, _⟩ => exact rhs_dot_1 _ _)
  rw [el, er]

/-- Window 2's array: the edge-type table through rows 256–383 of the transposed weight, on 5 rows; zero on rows 5–7. -/
theorem rT_apply (c : Dev nD) (e : Fin 8) (o : Fin 768) :
    rT m c (ix2 e o)
      = if h : e.val < 5 then ∑ cc : Fin 128, aEe m c (ix2 ⟨e.val, h⟩ cc) * aW m c (ix2 o ⟨256 + cc.val, by omega⟩)
        else 0 := by
  -- the operations composed: the third block of the transposed weight, the product with the edge-type table, and
  -- its 5 rows set at row 0 of an [8, 768] array of zeros
  have e0 : rT m c = Host.scatter scatter_S8x768_S1_S5x768_01_n_0_0 (fun _ b => b)
      (broadcastInDim S8x768 ![] bcast_S_S8x768 (constant (F := Ideal) S_ FTy.f32 0x00000000#32))
      (broadcastInDim S1 ![] bcast_S_S1 (constantI S_ 32 0#32))
      (Host.dotGeneral (F := Ideal) dot_S5x128_S128x768_S5x768_1_0_0_1_n_n none
        (truncf FTy.bf16 (m (c, Proc.tc.devRef main_arg3)) bitsLt_bf16_f32 : FVec Ideal S5x128 .bf16)
        (extractStridedSlice S128x768 ![256, 0]
          (truncf FTy.bf16
            (transpose S384x768 [1, 0] (m (c, Proc.tc.devRef main_arg4)) transposes_S768x384_S384x768_1_0)
            bitsLt_bf16_f32 : FVec Ideal S384x768 .bf16)
          slices_S384x768_S128x768_256_0)) := by
    dsimp only [rT, Gen.V, Gen.hostOps0]
    after_results
  rw [e0]
  -- the rows set: the product's on rows 0–4, the zeros' own on rows 5–7
  rw [Cert.Lib.scatter_set_rows (R := 8) (R' := 5) (C := 768) (by decide) scatter_S8x768_S1_S5x768_01_n_0_0 rfl rfl rfl rfl
    _ _ (by rfl) _ e o]
  by_cases h : e.val < 5
  · rw [dif_pos h, dif_pos h, dot_edge_apply]
    refine Finset.sum_congr rfl fun k _ => ?_
    -- row k of the slice is row 256 + k of the transposed weight, whose (256 + k, o) is the weight's (o, 256 + k)
    rw [truncf_apply, slice2_axis0_apply 256 _ slices_S384x768_S128x768_256_0 k o ⟨256 + k.val, by omega⟩ rfl,
      truncf_apply, transpose_ix2_apply]
  · rw [dif_neg h, dif_neg h, broadcastInDim_apply _ bcast_S_S8x768 _ _ ix0 (fun a => a.elim0), constant_apply,
      Ideal.ofBits_zero_f32]

/-- Window 4's array: the bias as a [1, 768] row. -/
theorem rB_apply (c : Dev nD) (o : Fin 768) : rB m c (ix2 (0 : Fin 1) o) = aBias m c (ix1 o) := by
  -- the one operation: the [768] bias recast as [1, 768], same row-major position
  have e : rB m c = (fun i => shapeCast S1x768 (m (c, Proc.tc.devRef main_arg5)) shapeCasts_S768_S1x768 i) := by
    dsimp only [rB, Gen.V, Gen.hostOps0]
    after_results
    rfl
  rw [e]
  exact shapeCast_a_1a_apply _ _ _ _

end Cert.KernelIdeal.HostValue

end
-- ==== Proof.BlocksToArray.lean ====
/-
  From the blocks to the whole output array. Grid point t = 4·b + s (batch b, receiver tile s) is handed the batch's node
  block, receivers 32s … 32s+31 of the batch's adjacency, the whole table, weight blocks and bias, and writes back
  block (b, s) of the [8, 128, 128, 768] output. Each written block restricts ONE function of the five region-entry
  arrays, and the 32 blocks tile the output: so the output array ends as that function.
-/
import proofs.«428032_j59949153517801_3_alg».proof.Proof.BlockFn
import proofs.«428032_j59949153517801_3_alg».proof.Proof.HostPrefix
import proofs.«428032_j59949153517801_3_alg».proof.Proof.Gen.KernelIdeal.Value
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.HostValue Idealize.ShloMosaic Idealize.ShloMosaic.TcCoe Idealize.ShloMosaic.ValueIdx Idealize.SL.Sem
open Idealize.ShloMosaic.Pipeline (Dat)

/-- The output at batch b, receiver i, sender j, channel o, from the five arrays the region finds. -/
def arrAtIdx (h : S8x128x128.Idx → EReal) (adj : S8x128x128.Idx → BitVec 32) (tt : S8x768.Idx → EReal)
    (w12 : S256x768.Idx → EReal) (bb : S1x768.Idx → EReal) (b : Fin 8) (i j : Fin 128) (o : Fin 768) : EReal :=
  (((∑ e : Fin 8, hot (adj (ix3 b i j)) e * tt (ix2 e o))
      + (∑ cc : Fin 128, h (ix3 b j cc) * w12 (ix2 (⟨128 + cc.val, by omega⟩ : Fin 256) o)))
      + (∑ cc : Fin 128, h (ix3 b i cc) * w12 (ix2 (⟨cc.val, by omega⟩ : Fin 256) o)))
    * (1 - hot (adj (ix3 b i j)) (0 : Fin 8))
    + bb (ix2 (0 : Fin 1) o)

/-- The whole output array. -/
def Garr (h : S8x128x128.Idx → EReal) (adj : S8x128x128.Idx → BitVec 32) (tt : S8x768.Idx → EReal)
    (w12 : S256x768.Idx → EReal) (bb : S1x768.Idx → EReal) : S8x128x128x768.Idx → EReal :=
  fun y => arrAtIdx h adj tt w12 bb ⟨(y 0).val, (y 0).isLt⟩ ⟨(y 1).val, (y 1).isLt⟩ ⟨(y 2).val, (y 2).isLt⟩ ⟨(y 3).val, (y 3).isLt⟩

variable (m : (ℓ : Loc nD τ sig) → Buf (Elt Ideal) ℓ)

/-! The five input blocks at a point, each named at its literal type. -/
abbrev blkH (c : Dev nD) (t : Fin cfg0.N) : S1x128x128.Idx → EReal := iblk m c 0 t
abbrev blkAdj (c : Dev nD) (t : Fin cfg0.N) : S1x32x128.Idx → BitVec 32 := iblk m c 1 t
abbrev blkT (c : Dev nD) (t : Fin cfg0.N) : S8x768.Idx → EReal := iblk m c 2 t
abbrev blkW (c : Dev nD) (t : Fin cfg0.N) : S256x768.Idx → EReal := iblk m c 3 t
abbrev blkB (c : Dev nD) (t : Fin cfg0.N) : S1x768.Idx → EReal := iblk m c 4 t

/-- The printed index maps, decided once over the 32 grid points: the node block follows the output's batch, the
    adjacency block the output's batch and receiver tile, the other three stay put; the body's second grid coordinate
    is the receiver tile. -/
theorem idx_facts : ∀ t : Fin cfg0.N,
    win0_0.index t (0 : Fin 3) = win0_5.index t (0 : Fin 4) ∧ win0_0.index t (1 : Fin 3) = 0 ∧ win0_0.index t (2 : Fin 3) = 0
    ∧ win0_1.index t (0 : Fin 3) = win0_5.index t (0 : Fin 4) ∧ win0_1.index t (1 : Fin 3) = win0_5.index t (1 : Fin 4) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) ≤ 7 ∧ win0_5.index t (1 : Fin 4) ≤ 3 ∧ win0_5.index t (2 : Fin 4) = 0 ∧ win0_5.index t (3 : Fin 4) = 0
    ∧ ((grid0.coords t) 1).val = win0_5.index t (1 : Fin 4) :=
  (by decide +kernel : ∀ t : Fin grid0.N, _)

/-- Every (batch, receiver tile) pair is some point's output block. -/
theorem idx_onto : ∀ (q0 : Fin 8) (q1 : Fin 4), ∃ t : Fin cfg0.N, win0_5.index t = ![q0.val, q1.val, 0, 0] :=
  (by decide +kernel : ∀ (q0 : Fin 8) (q1 : Fin 4), ∃ t : Fin grid0.N, win0_5.index t = ![q0.val, q1.val, 0, 0])

section
variable (c : Dev nD) (t : Fin cfg0.N) (b : Fin 8) (s : Fin 4)
  (hb : win0_5.index t (0 : Fin 4) = b.val) (hs : win0_5.index t (1 : Fin 4) = s.val)
include hb hs

/-- The node block at the point is the batch's slab of the node embeddings. -/
theorem blkH_apply (n cc : Fin 128) : blkH m c t (ix3 (0 : Fin 1) n cc) = rH m c (ix3 b n cc) := by
  obtain ⟨e0, e1, e2, -⟩ := idx_facts t
  show V m c main_v7 (((cfg0.win 0).blk t).view.emb (ix3 (0 : Fin 1) n cc)) = V m c main_v7 (ix3 b n cc)
  congr 1
  funext a; apply Fin.ext
  match a with
  | ⟨0, _⟩ => show win0_0.index t (0 : Fin 3) * 1 + 1 * 0 = b.val; omega
  | ⟨1, _⟩ => show win0_0.index t (1 : Fin 3) * 128 + 1 * n.val = n.val; omega
  | ⟨2, _⟩ => show win0_0.index t (2 : Fin 3) * 128 + 1 * cc.val = cc.val; omega

/-- The adjacency block at the point is receivers 32s … 32s+31 of the batch's adjacency. -/
theorem blkAdj_apply (p : Fin 32) (j : Fin 128) :
    blkAdj m c t (ix3 (0 : Fin 1) p j) = rAdj m c (ix3 b (⟨32 * s.val + p.val, by omega⟩ : Fin 128) j) := by
  obtain ⟨-, -, -, e3, e4, e5, -⟩ := idx_facts t
  show V m c main_arg1 (((cfg0.win 1).blk t).view.emb (ix3 (0 : Fin 1) p j)) = V m c main_arg1 (ix3 b (⟨32 * s.val + p.val, by omega⟩ : Fin 128) j)
  congr 1
  funext a; apply Fin.ext
  match a with
  | ⟨0, _⟩ => show win0_1.index t (0 : Fin 3) * 1 + 1 * 0 = b.val; omega
  | ⟨1, _⟩ => show win0_1.index t (1 : Fin 3) * 32 + 1 * p.val = 32 * s.val + p.val; omega
  | ⟨2, _⟩ => show win0_1.index t (2 : Fin 3) * 128 + 1 * j.val = j.val; omega
omit hb hs

/-- The table block is the whole table. -/
theorem blkT_apply (e : Fin 8) (o : Fin 768) : blkT m c t (ix2 e o) = rT m c (ix2 e o) := by
  obtain ⟨-, -, -, -, -, -, e6, e7, -⟩ := idx_facts t
  show V m c main_v16 (((cfg0.win 2).blk t).view.emb (ix2 e o)) = V m c main_v16 (ix2 e o)
  congr 1
  funext a; apply Fin.ext
  match a with
  | ⟨0, _⟩ => show win0_2.index t (0 : Fin 2) * 8 + 1 * e.val = e.val; omega
  | ⟨1, _⟩ => show win0_2.index t (1 : Fin 2) * 768 + 1 * o.val = o.val; omega

/-- The weight block is the whole [256, 768] array. -/
theorem blkW_apply (r : Fin 256) (o : Fin 768) : blkW m c t (ix2 r o) = rW12 m c (ix2 r o) := by
  obtain ⟨-, -, -, -, -, -, -, -, e8, e9, -⟩ := idx_facts t
  show V m c main_v10 (((cfg0.win 3).blk t).view.emb (ix2 r o)) = V m c main_v10 (ix2 r o)
  congr 1
  funext a; apply Fin.ext
  match a with
  | ⟨0, _⟩ => show win0_3.index t (0 : Fin 2) * 256 + 1 * r.val = r.val; omega
  | ⟨1, _⟩ => show win0_3.index t (1 : Fin 2) * 768 + 1 * o.val = o.val; omega

/-- The bias block is the whole row. -/
theorem blkB_apply (o : Fin 768) : blkB m c t (ix2 (0 : Fin 1) o) = rB m c (ix2 (0 : Fin 1) o) := by
  obtain ⟨-, -, -, -, -, -, -, -, -, -, e10, e11, -⟩ := idx_facts t
  show V m c main_v17 (((cfg0.win 4).blk t).view.emb (ix2 (0 : Fin 1) o)) = V m c main_v17 (ix2 (0 : Fin 1) o)
  congr 1
  funext a; apply Fin.ext
  match a with
  | ⟨0, _⟩ => show win0_4.index t (0 : Fin 2) * 1 + 1 * 0 = 0; omega
  | ⟨1, _⟩ => show win0_4.index t (1 : Fin 2) * 768 + 1 * o.val = o.val; omega
end

/-- WHAT POINT t WRITES BACK is block t of the one function of the region-entry arrays, where every adjacency word is an
    edge type. -/
theorem flushed_eq (c : Dev nD) (hr : ∀ y : S8x128x128.Idx, 0 ≤ (rAdj m c y).toInt ∧ (rAdj m c y).toInt < 5) (t : Fin cfg0.N) :
    (dats m 0 c).flushed 5 t
      = ((cfg0.win 5).blk t).view.read (Elt Ideal) (Garr (rH m c) (rAdj m c) (rT m c) (rW12 m c) (rB m c)) := by
  obtain ⟨-, -, -, -, -, -, -, -, -, -, -, -, e12, e13, e14, e15, e16⟩ := idx_facts t
  have hb : win0_5.index t (0 : Fin 4) = (⟨win0_5.index t (0 : Fin 4), by omega⟩ : Fin 8).val := rfl
  have hs : win0_5.index t (1 : Fin 4) = (⟨win0_5.index t (1 : Fin 4), by omega⟩ : Fin 4).val := rfl
  rw [Cert.KernelIdeal.Value.flushed5_A]
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (blkH m c t) (blkAdj m c t) (blkT m c t) (blkW m c t) (blkB m c t) = _
  rw [out0_block c (grid0.coords t) _ _ _ _ _ _ _ _ _ _ _ _ _ _ (blkH m c t) (blkAdj m c t) (blkT m c t) (blkW m c t) (blkB m c t)
    (⟨win0_5.index t (1 : Fin 4), by omega⟩ : Fin 4) e16
    (fun p j => by rw [blkAdj_apply m c t _ _ hb hs p j]; exact hr _)]
  funext y
  obtain ⟨u, p, j, o, rfl⟩ : ∃ (u : Fin 1) (p : Fin 32) (j : Fin 128) (o : Fin 768), y = ix4 u p j o := ⟨y 0, y 1, y 2, y 3, eq_ix4 y⟩
  obtain rfl : u = 0 := Subsingleton.elim _ _
  have e5 : ((cfg0.win 5).blk t).view.emb (ix4 (0 : Fin 1) p j o)
      = ix4 (⟨win0_5.index t (0 : Fin 4), by omega⟩ : Fin 8) (⟨32 * win0_5.index t (1 : Fin 4) + p.val, by omega⟩ : Fin 128) j o := by
    funext a; apply Fin.ext
    match a with
    | ⟨0, _⟩ => show win0_5.index t (0 : Fin 4) * 1 + 1 * 0 = win0_5.index t (0 : Fin 4); omega
    | ⟨1, _⟩ => show win0_5.index t (1 : Fin 4) * 32 + 1 * p.val = 32 * win0_5.index t (1 : Fin 4) + p.val; omega
    | ⟨2, _⟩ => show win0_5.index t (2 : Fin 4) * 128 + 1 * j.val = j.val; omega
    | ⟨3, _⟩ => show win0_5.index t (3 : Fin 4) * 768 + 1 * o.val = o.val; omega
  show blkAt _ (blkH m c t) (blkAdj m c t) (blkT m c t) (blkW m c t) (blkB m c t) p j o
      = Garr (rH m c) (rAdj m c) (rT m c) (rW12 m c) (rB m c) (((cfg0.win 5).blk t).view.emb (ix4 (0 : Fin 1) p j o))
  rw [e5]
  show _ = arrAtIdx (rH m c) (rAdj m c) (rT m c) (rW12 m c) (rB m c) _ (⟨32 * win0_5.index t (1 : Fin 4) + p.val, by omega⟩ : Fin 128) j o
  unfold blkAt arrAtIdx
  simp only [blkH_apply m c t _ _ hb hs, blkAdj_apply m c t _ _ hb hs, blkT_apply m c t, blkW_apply m c t, blkB_apply m c t]

/-- An index of the output is in point t's block iff each coordinate is in the block's range on its axis. -/
theorem mem_blk (t : Fin cfg0.N) (i : S8x128x128x768.Idx) :
    i ∈ ((cfg0.win 5).blk t).view.set ↔ ∀ a : Fin 4, win0_5.index t a * S1x32x128x768.size a ≤ (i a).val ∧ (i a).val < win0_5.index t a * S1x32x128x768.size a + S1x32x128x768.size a := by
  show i ∈ ((View.whole main_v18).slice (win0_5.rect t)).set ↔ _
  rw [View.set_slice_whole, Rect.mem_set_unit]
  exact Iff.rfl

/-- The 32 blocks tile the output: every index is in some point's block. -/
theorem cover (i : S8x128x128x768.Idx) : ∃ t : Fin cfg0.N, (cfg0.win 5).flush t = true ∧ i ∈ ((cfg0.win 5).blk t).view.set := by
  have hi0 : (i 0).val < 8 := (i 0).isLt
  have hi1 : (i 1).val < 128 := (i 1).isLt
  have hi2 : (i 2).val < 128 := (i 2).isLt
  have hi3 : (i 3).val < 768 := (i 3).isLt
  obtain ⟨t, ht⟩ := idx_onto ⟨(i 0).val, hi0⟩ ⟨(i 1).val / 32, by omega⟩
  have q0 : win0_5.index t (0 : Fin 4) = (i 0).val := congrFun ht 0
  have q1 : win0_5.index t (1 : Fin 4) = (i 1).val / 32 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 128 ≤ (i 2).val ∧ (i 2).val < win0_5.index t (2 : Fin 4) * 128 + 128; omega
  | ⟨3, _⟩ => show win0_5.index t (3 : Fin 4) * 768 ≤ (i 3).val ∧ (i 3).val < win0_5.index t (3 : Fin 4) * 768 + 768; omega

/-- THE OUTPUT ARRAY after the run: the one function of the five region-entry arrays. -/
theorem arr_final (c : Dev nD) (hr : ∀ y : S8x128x128.Idx, 0 ≤ (rAdj m c y).toInt ∧ (rAdj m c y).toInt < 5) :
    (dats m 0 c).arrAt 5 cfg0.N = Garr (rH m c) (rAdj m c) (rT m c) (rW12 m c) (rB m c) :=
  (dats m 0 c).arrAt_eq_of_cover 5 _ (fun t _ => flushed_eq m c hr t) cover

end Cert.KernelIdeal.KValue

end
-- ==== Proof.MsgAlgebra.lean ====
/-
  The one algebraic law between the two arrangements of the message layer, over the extended reals.
  A 384-term dot product whose every left factor carries the same indicator μ ∈ {0, 1} is the sum of its three
  128-term thirds, times μ: at μ = 1 both sides are the same 384 products added in another grouping, at μ = 0 both are 0.
  Only commutativity and associativity of + and the absorbing 0 of · are used, so no finiteness is needed.
-/
import Mathlib.Data.EReal.Basic
import Mathlib.Algebra.BigOperators.Fin

noncomputable section

namespace Cert.Msg

/-- Three summands taken in the opposite order: only commutativity and associativity of +. -/
private theorem regroup (A B C : EReal) : (C + B) + A = (A + B) + C := by
  rw [add_comm C B, add_comm (B + C) A, add_assoc]

/-- A 384-term sum is the sum of its three 128-term thirds: 384 = (128 + 128) + 128, split twice. -/
private theorem sum_thirds (f : Fin 384 → EReal) :
    (∑ k : Fin 384, f k)
      = ((∑ c : Fin 128, f ⟨256 + c.val, by omega⟩) + (∑ c : Fin 128, f ⟨128 + c.val, by omega⟩))
          + (∑ c : Fin 128, f ⟨c.val, by omega⟩) := by
  -- the last 128 indices are split off first, then the first 256 are halved
  have h1 := Fin.sum_univ_add (M := EReal) (a := 128 + 128) (b := 128) (fun i : Fin (128 + 128 + 128) => f i)
  have h2 := Fin.sum_univ_add (M := EReal) (a := 128) (b := 128)
    (fun i : Fin (128 + 128) => f (Fin.castAdd 128 i : Fin (128 + 128 + 128)))
  -- each third, re-indexed by its offset
  have e2 : (∑ i : Fin 128, f (Fin.natAdd (128 + 128) i : Fin (128 + 128 + 128)))
      = ∑ c : Fin 128, f ⟨256 + c.val, by omega⟩ :=
    Finset.sum_congr rfl (fun i _ => congrArg f (Fin.ext rfl))
  have e1 : (∑ i : Fin 128, f (Fin.castAdd 128 (Fin.natAdd 128 i) : Fin (128 + 128 + 128)))
      = ∑ c : Fin 128, f ⟨128 + c.val, by omega⟩ :=
    Finset.sum_congr rfl (fun i _ => congrArg f (Fin.ext rfl))
  have e0 : (∑ i : Fin 128, f (Fin.castAdd 128 (Fin.castAdd 128 i) : Fin (128 + 128 + 128)))
      = ∑ c : Fin 128, f ⟨c.val, by omega⟩ :=
    Finset.sum_congr rfl (fun i _ => congrArg f (Fin.ext rfl))
  calc (∑ k : Fin 384, f k)
      = ((∑ c : Fin 128, f ⟨c.val, by omega⟩) + (∑ c : Fin 128, f ⟨128 + c.val, by omega⟩))
          + (∑ c : Fin 128, f ⟨256 + c.val, by omega⟩) := by
        rw [← e0, ← e1, ← e2, ← h2]; exact h1
    _ = _ := regroup _ _ _

/-- Thirds of a 384-term dot product against a common 0/1 factor. -/
theorem msg_law (x w : Fin 384 → EReal) (μ β : EReal) (hμ : μ = 0 ∨ μ = 1) :
    (((∑ c : Fin 128, x ⟨256 + c.val, by omega⟩ * w ⟨256 + c.val, by omega⟩)
        + (∑ c : Fin 128, x ⟨128 + c.val, by omega⟩ * w ⟨128 + c.val, by omega⟩))
        + (∑ c : Fin 128, x ⟨c.val, by omega⟩ * w ⟨c.val, by omega⟩)) * μ + β
      = (∑ k : Fin 384, (x k * μ) * w k) + β := by
  rcases hμ with rfl | rfl
  · -- μ = 0: every product on the right is 0, and the left is a sum times 0
    simp only [mul_zero, zero_mul, Finset.sum_const_zero]
  · -- μ = 1: the same 384 products, grouped in thirds
    simp only [mul_one]
    exact congrArg (· + β) (sum_thirds (fun k => x k * w k)).symm

/-- A one-hot row of length 8 whose hot position `r` is below 5 picks entry `r` out of a sum. -/
theorem onehot_sum (r : Fin 5) (t : Fin 8 → EReal) :
    (∑ e : Fin 8, (if e.val = r.val then (1 : EReal) else 0) * t e) = t ⟨r.val, by omega⟩ := by
  rw [Finset.sum_eq_single (⟨r.val, by omega⟩ : Fin 8)]
  · -- the hot term
    rw [if_pos rfl, one_mul]
  · -- every other term has factor 0
    intro b _ hb
    have hne : b.val ≠ r.val := fun h => hb (Fin.ext h)
    rw [if_neg hne, zero_mul]
  · intro h
    exact absurd (Finset.mem_univ _) h

end Cert.Msg

end
-- ==== Proof.KernelIsG.lean ====
/-
  The kernel's output array is the message function of the arguments.
  Substituting what the host operations leave in the five region-entry arrays — the node embeddings, the transposed
  weight's blocks, the edge table through the third block, the bias — into the array function gives, for an edge
  type a = adj[b, i, j] in [0, 5):
      ((∑ c, e[a, c]·W[o, 256 + c]) + (∑ c, h[b, j, c]·W[o, 128 + c]) + (∑ c, h[b, i, c]·W[o, c])) · μ(a) + bias[o],
  the one-hot sum picking the type's row and 1 − [a = 0] being the edge indicator μ(a). The law of thirds against a
  common 0/1 factor turns this into the 384-term form.
-/
import proofs.«428032_j59949153517801_3_alg».proof.Proof.BlocksToArray
import proofs.«428032_j59949153517801_3_alg».proof.Proof.HostPrefix
import proofs.«428032_j59949153517801_3_alg».proof.Proof.MsgAlgebra
import proofs.«428032_j59949153517801_3_alg».proof.Proof.Spec

set_option maxRecDepth 16384

noncomputable section

namespace Cert.KernelIdeal.KValue

open Cert.KernelIdeal Cert.KernelIdeal.Gen Cert.KernelIdeal.HostValue Cert.Msg Idealize.ShloMosaic Idealize.ShloMosaic.TcCoe Idealize.ShloMosaic.ValueIdx Idealize.SL.Sem

section
variable (hn : S8x128x128.Idx → EReal) (adj : S8x128x128.Idx → BitVec 32) (ee : S5x128.Idx → EReal) (b : Fin 8) (i j : Fin 128)

/-- Channels 0–127 of the concatenated input: the receiver's embedding. -/
theorem cat_lo (cc : Fin 128) : cat hn adj ee b i j (⟨cc.val, by omega⟩ : Fin 384) = hn (ix3 b i cc) := by
  unfold cat; rw [dif_pos (show cc.val < 128 from cc.isLt)]

/-- Channels 128–255: the sender's embedding. -/
theorem cat_mid (cc : Fin 128) : cat hn adj ee b i j (⟨128 + cc.val, by omega⟩ : Fin 384) = hn (ix3 b j cc) := by
  unfold cat
  rw [dif_neg (show ¬ (128 + cc.val < 128) by omega), dif_pos (show 128 + cc.val < 256 by omega)]
  congr 2; apply Fin.ext; show 128 + cc.val - 128 = cc.val; omega

/-- Channels 256–383: the edge type's embedding. -/
theorem cat_hi (cc : Fin 128) :
    cat hn adj ee b i j (⟨256 + cc.val, by omega⟩ : Fin 384) = ee (ix2 (erow (adj (ix3 b i j))) cc) := by
  unfold cat
  rw [dif_neg (show ¬ (256 + cc.val < 128) by omega), dif_neg (show ¬ (256 + cc.val < 256) by omega)]
  congr 2; apply Fin.ext; show 256 + cc.val - 256 = cc.val; omega
end

/-- For an edge type, one minus the indicator of class 0 is the edge indicator. -/
theorem one_sub_hot_zero (a : BitVec 32) (h : 0 ≤ a.toInt ∧ a.toInt < 5) : (1 : EReal) - hot a (0 : Fin 8) = mask a := by
  unfold hot mask erow
  by_cases h0 : 0 < a.toInt
  · rw [if_pos h0, if_neg (by show ¬ (0 = min a.toInt.toNat 4); omega), sub_zero]
  · rw [if_neg h0, if_pos (by show 0 = min a.toInt.toNat 4; omega)]
    exact EReal.sub_self (by decide) (by decide)

variable (m : (ℓ : Loc nD τ sig) → Buf (Elt Ideal) ℓ)

/-- THE KERNEL'S OUTPUT ARRAY is the message function of the arguments, where every adjacency word is an edge type. -/
theorem kernel_is_G (c : Dev nD) (hr : ∀ y : S8x128x128.Idx, 0 ≤ (aAdj m c y).toInt ∧ (aAdj m c y).toInt < 5) :
    (dats m 0 c).arrAt 5 cfg0.N
      = Gm (hnodeK (aX m c) (aEn m c)) (aAdj m c) (aEe m c) (aW m c) (aBias m c) := by
  rw [arr_final m c (by rw [rAdj_eq]; exact hr)]
  funext y
  obtain ⟨b, i, j, o, rfl⟩ : ∃ (b : Fin 8) (i j : Fin 128) (o : Fin 768), y = ix4 b i j o := ⟨y 0, y 1, y 2, y 3, eq_ix4 y⟩
  show arrAtIdx (rH m c) (rAdj m c) (rT m c) (rW12 m c) (rB m c) b i j o
      = msgAt (hnodeK (aX m c) (aEn m c)) (aAdj m c) (aEe m c) (aW m c) (aBias m c) b i j o
  unfold arrAtIdx msgAt
  rw [rAdj_eq, rH_eq, rB_apply]
  have s1 : (∑ e : Fin 8, hot (aAdj m c (ix3 b i j)) e * rT m c (ix2 e o))
      = ∑ e : Fin 8, hot (aAdj m c (ix3 b i j)) e *
          (if h : e.val < 5 then ∑ cc : Fin 128, aEe m c (ix2 ⟨e.val, h⟩ cc) * aW m c (ix2 o ⟨256 + cc.val, by omega⟩) else 0) :=
    Finset.sum_congr rfl fun e _ => congrArg (hot (aAdj m c (ix3 b i j)) e * ·) (rT_apply m c e o)
  have s2 : (∑ cc : Fin 128, hnodeK (aX m c) (aEn m c) (ix3 b j cc) * rW12 m c (ix2 (⟨128 + cc.val, by omega⟩ : Fin 256) o))
      = ∑ cc : Fin 128, hnodeK (aX m c) (aEn m c) (ix3 b j cc) * aW m c (ix2 o (⟨128 + cc.val, by omega⟩ : Fin 384)) :=
    Finset.sum_congr rfl fun cc _ => congrArg (hnodeK (aX m c) (aEn m c) (ix3 b j cc) * ·) (rW12_apply m c _ o)
  have s3 : (∑ cc : Fin 128, hnodeK (aX m c) (aEn m c) (ix3 b i cc) * rW12 m c (ix2 (⟨cc.val, by omega⟩ : Fin 256) o))
      = ∑ cc : Fin 128, hnodeK (aX m c) (aEn m c) (ix3 b i cc) * aW m c (ix2 o (⟨cc.val, by omega⟩ : Fin 384)) :=
    Finset.sum_congr rfl fun cc _ => congrArg (hnodeK (aX m c) (aEn m c) (ix3 b i cc) * ·) (rW12_apply m c _ o)
  rw [s1, s2, s3]
  have hsum : (∑ e : Fin 8, hot (aAdj m c (ix3 b i j)) e *
        (if h : e.val < 5 then ∑ cc : Fin 128, aEe m c (ix2 ⟨e.val, h⟩ cc) * aW m c (ix2 o ⟨256 + cc.val, by omega⟩) else 0))
      = ∑ cc : Fin 128, aEe m c (ix2 (erow (aAdj m c (ix3 b i j))) cc) * aW m c (ix2 o ⟨256 + cc.val, by omega⟩) := by
    unfold hot
    rw [onehot_sum (erow (aAdj m c (ix3 b i j)))
      (fun e => if h : e.val < 5 then ∑ cc : Fin 128, aEe m c (ix2 ⟨e.val, h⟩ cc) * aW m c (ix2 o ⟨256 + cc.val, by omega⟩) else 0)]
    rw [dif_pos (erow (aAdj m c (ix3 b i j))).isLt]
  rw [hsum, one_sub_hot_zero _ (hr _)]
  rw [← msg_law (cat (hnodeK (aX m c) (aEn m c)) (aAdj m c) (aEe m c) b i j) (fun k => aW m c (ix2 o k))
    (mask (aAdj m c (ix3 b i j))) (aBias m c (ix1 o)) (mask_zero_or_one _)]
  simp only [cat_lo, cat_mid, cat_hi]

end Cert.KernelIdeal.KValue

end
-- ==== Proof.LibGatherRows.lean ====
/-
  A row lookup read at an index. jnp's `table[idx]` over a rank-2 table [N, C] and a rank-3 array of positions
  [A, B, D] prints as a `stablehlo.gather` whose start indices are the [A, B, D, 1] array of positions, whose
  operand axis 0 is collapsed and start-indexed, whose operand axis 1 is the one offset axis (result axis 3), with the
  index vector on axis 3 and slice sizes [1, C]. Result element (a, b, d, c) is the table's entry in column `c` of
  the row named by position (a, b, d): the start index read SIGNED and CLAMPED into the table's rows.
-/
import Idealize.ShloMosaic.PureOps
import Idealize.ShloMosaic.Lib.ValueIdx

noncomputable section

namespace Cert.Lib

open Idealize.ShloMosaic Idealize.ShloMosaic.ValueIdx

/-- The gather of whole rows of an [N, C] table at an [A, B, D, 1] array of row positions reads, at (a, b, d, c),
    the table at (the clamped row position, c). -/
theorem gather_row4 {α : Type} {N C A B D w : Nat}
    (d : GatherDims ⟨2, ![N, C]⟩ ⟨4, ![A, B, D, 1]⟩ ⟨4, ![A, B, D, C]⟩)
    (hoff : d.offsetDims = [3]) (hcoll : d.collapsedSliceDims = [0]) (hob : d.operandBatchingDims = [])
    (hsim : d.startIndexMap = [0]) (hivd : d.indexVectorDim = 3)
    (x : (⟨2, ![N, C]⟩ : Shape).Idx → α) (idx : IVec ⟨4, ![A, B, D, 1]⟩ w) (hN : 0 < N)
    (a : Fin A) (b : Fin B) (dd : Fin D) (cc : Fin C) :
    Host.gather d x idx (ix4 a b dd cc)
      = x (ix2 ⟨min (idx (ix4 a b dd (0 : Fin 1))).toInt.toNat (N - 1), by omega⟩ cc) := by
  unfold Host.gather
  congr 1
  funext ax
  have hb : ∀ e : Fin 2, e ∉ d.operandBatchingDims := by intro e; rw [hob]; exact List.not_mem_nil
  -- the axis lists the dimension numbers determine: the start indices' axes but the index vector's, the result's
  -- batch axes, and the operand's one axis that is neither collapsed nor batching
  have hsk : d.siKept = [0, 1, 2] := by
    unfold GatherDims.siKept; rw [hivd]; rfl
  have hbd : d.batchDims = [0, 1, 2] := by
    unfold GatherDims.batchDims; rw [hoff]; rfl
  have hkp : d.sKept = [1] := by
    unfold GatherDims.sKept; rw [hcoll, hob]; rfl
  have hax : ax = (0 : Fin 2) ∨ ax = (1 : Fin 2) := by
    have h2 : ax.val < 2 := ax.isLt
    rcases Nat.lt_or_ge ax.val 1 with h | h
    · left; exact Fin.ext (by show ax.val = 0; omega)
    · right; exact Fin.ext (by show ax.val = 1; omega)
  rcases hax with rfl | rfl
  · -- operand axis 0: collapsed and start-indexed, so no batching and no offset coordinate; the start is the signed
    -- start index clamped to [0, N - 1] (the slice size on a collapsed axis is 1)
    apply Fin.ext
    have hk : (0 : Fin 2) ∉ d.sKept := by rw [hkp]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix4 a b dd (0 : Fin 1))).toInt.toNat (N - 1)
    rw [hsl]
    congr 3
    congr 1
    -- the position read in the start indices is (a, b, dd, 0): axis by axis
    funext bx
    -- a batch axis e < 3 of the start indices sits at position e among the kept axes, and the result's batch axis at
    -- that position is e again, where (a, b, dd, cc) and (a, b, dd, 0) agree
    have key : ∀ (l : List (Fin 4)) (k : Nat) (h : k < l.length) (e : Fin 4), l = [0, 1, 2] → e.val < 3 → k = e.val →
        ((ix4 a b dd cc) (l[k]'h)).val = ((ix4 a b dd (0 : Fin 1)) e).val := by
      intro l k h e hl he hk
      subst hl; subst hk
      match e, he with
      | ⟨0, _⟩, _ => rfl
      | ⟨1, _⟩, _ => rfl
      | ⟨2, _⟩, _ => rfl
      | ⟨3, _⟩, h3 => exact absurd h3 (Nat.lt_irrefl 3)
    have hidx : ∀ e : Fin 4, e.val < 3 → List.idxOf e ([0, 1, 2] : List (Fin 4)) = e.val := by decide
    have hbx : bx.val < 3 ∨ bx.val = 3 := by have h4 : bx.val < 4 := bx.isLt; omega
    rcases hbx with h3 | h3
    · unfold GatherDims.siIdx
      rw [dif_neg (by rw [hivd]; omega)]
      unfold GatherDims.siCoord
      apply Fin.ext
      simp only [Fin.val_cast]
      exact key _ _ _ bx hbd h3 (by rw [hsk]; exact hidx bx h3)
    · -- the index vector's axis: the component of the start index for operand axis 0 is component 0
      obtain rfl : bx = (3 : Fin 4) := Fin.ext h3
      unfold GatherDims.siIdx
      rw [dif_pos (by rw [hivd]; rfl)]
      apply Fin.ext
      show List.idxOf (0 : Fin 2) d.startIndexMap = 0
      rw [hsim]; simp
  · -- operand axis 1: not start-indexed (start 0), not batching; it is the one offset axis, read off result axis 3
    apply Fin.ext
    have hk : (1 : Fin 2) ∈ d.sKept := by rw [hkp]; simp
    have hm : (1 : Fin 2) ∉ d.startIndexMap := by rw [hsim]; simp
    simp only [GatherDims.operandIdx, GatherDims.batchCoord_eq_zero _ _ _ (hb _),
      Nat.add_zero, GatherDims.start, dif_neg hm, Nat.zero_add]
    unfold GatherDims.offCoord
    rw [dif_pos hk]
    have key : ∀ (l : List (Fin 4)) (k : Nat) (h : k < l.length), l = [3] → k = 0 →
        ((ix4 a b dd cc) (l[k]'h)).val = cc.val := by
      intro l k h hl hk; subst hl; subst hk; rfl
    exact key _ _ _ hoff (by rw [hkp]; simp)

end Cert.Lib

end
-- ==== Proof.RefIsG.lean ====
/-
  The reference's result is the message function: its last stage, read index by index, is
      ∑ k < 384, (cat[b, i, j, k] · μ[b, i, j]) · W[o, k] + bias[o]
  with the node embeddings the reference's own lookup. Where every adjacency word is an edge type the
  wrap of a negative index is the identity, so the edge lookup reads row `erow`.
-/
import proofs.«428032_j59949153517801_3_alg».proof.Proof.Gen.ReferenceIdeal.Read
import proofs.«428032_j59949153517801_3_alg».proof.Proof.Spec
import proofs.«428032_j59949153517801_3_alg».proof.Proof.LibGatherRows
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- Where every adjacency word is an edge type, the wrapped edge index is the word itself. -/
private theorem edge_idx (x1 : (⟨S8x128x128, .i32⟩ : BufTy).Contents (Elt Ideal))
    (hr : ∀ y : S8x128x128.Idx, 0 ≤ (x1 y).toInt ∧ (x1 y).toInt < 5) (b : Fin 8) (i j : Fin 128) :
    Cert.ReferenceIdeal.Read.val_main_v12 (F := Ideal) x1 (ix4 b i j (0 : Fin 1)) = x1 (ix3 b i j) := by
  rw [Read.val_main_v12_apply, Read.val_main_v11_apply, Read.val_main_v8_apply, Read.val_main_v7_apply,
    Read.val_main_c_1_apply]
  have e : Read.idx_main_v12 (ix4 b i j (0 : Fin 1)) = ix3 b i j :=
    funext fun a => Fin.ext (by match a with | ⟨0, _⟩ => rfl | ⟨1, _⟩ => rfl | ⟨2, _⟩ => rfl)
  rw [e]
  have hc : IntOp.cmpi CmpIPredicate.slt (x1 (ix3 b i j)) 0#32 = 0#1 := by
    unfold IntOp.cmpi
    show BitVec.ofBool ((x1 (ix3 b i j)).slt 0#32) = 0#1
    rw [BitVec.slt]
    have h0 : (0#32 : BitVec 32).toInt = 0 := by decide
    rw [h0, decide_eq_false (not_lt.mpr (hr (ix3 b i j)).1)]
    rfl
  rw [hc, select_zero]

/-- The concatenated message input, channel by channel: the receiver's embedding, the sender's, the edge type's row. -/
private theorem cat_read (x0 : (⟨S8x128, .i32⟩ : BufTy).Contents (Elt Ideal)) (x1 : (⟨S8x128x128, .i32⟩ : BufTy).Contents (Elt Ideal))
    (x2 : (⟨S16x128, .f32⟩ : BufTy).Contents (Elt Ideal)) (x3 : (⟨S5x128, .f32⟩ : BufTy).Contents (Elt Ideal))
    (hr : ∀ y : S8x128x128.Idx, 0 ≤ (x1 y).toInt ∧ (x1 y).toInt < 5) (b : Fin 8) (i j : Fin 128) (k : Fin 384) :
    Cert.ReferenceIdeal.Read.val_main_v22 (F := Ideal) x0 x1 x2 x3 (ix4 b i j k)
      = Cert.Msg.cat (Cert.ReferenceIdeal.Read.val_main_v6 (F := Ideal) x0 x2) x1 x3 b i j k := by
  unfold Cert.Msg.cat Read.val_main_v22
  by_cases h1 : k.val < 128
  · -- channels 0–127: the first piece, the receiver's embedding broadcast over the senders
    rw [dif_pos h1]
    rw [concatenate_apply_piece (3 : Fin 4) _ _ (ix4 b i j k) 0 (by show 0 < 3; omega) S8x128x128x128
      (Read.val_main_v19 (F := Ideal) x0 x2) rfl rfl 0 rfl (ix4 b i j ⟨k.val, h1⟩)
      (fun c hc => by match c with | ⟨0, _⟩ => rfl | ⟨1, _⟩ => rfl | ⟨2, _⟩ => rfl | ⟨3, _⟩ => exact absurd rfl hc)
      (by show 0 + k.val = k.val; omega)]
    rw [Read.val_main_v19_apply, Read.val_main_v18_apply]
    exact congrArg _ (funext fun a => Fin.ext (by match a with | ⟨0, _⟩ => rfl | ⟨1, _⟩ => rfl | ⟨2, _⟩ => rfl))
  · rw [dif_neg h1]
    by_cases h2 : k.val < 256
    · -- channels 128–255: the second piece, the sender's embedding broadcast over the receivers
      rw [dif_pos h2]
      have hk : k.val - 128 < 128 := by omega
      rw [concatenate_apply_piece (3 : Fin 4) _ _ (ix4 b i j k) 1 (by show 1 < 3; omega) S8x128x128x128
        (Read.val_main_v21 (F := Ideal) x0 x2) rfl rfl 128 rfl (ix4 b i j ⟨k.val - 128, hk⟩)
        (fun c hc => by match c with | ⟨0, _⟩ => rfl | ⟨1, _⟩ => rfl | ⟨2, _⟩ => rfl | ⟨3, _⟩ => exact absurd rfl hc)
        (by show 128 + (k.val - 128) = k.val; omega)]
      rw [Read.val_main_v21_apply, Read.val_main_v20_apply]
      exact congrArg _ (funext fun a => Fin.ext (by match a with | ⟨0, _⟩ => rfl | ⟨1, _⟩ => rfl | ⟨2, _⟩ => rfl))
    · -- channels 256–383: the third piece, the edge table's row at the adjacency word
      rw [dif_neg h2]
      have hk : k.val - 256 < 128 := by have := k.isLt; omega
      rw [concatenate_apply_piece (3 : Fin 4) _ _ (ix4 b i j k) 2 (by show 2 < 3; omega) S8x128x128x128
        (Read.val_main_v13 (F := Ideal) x1 x3) rfl rfl 256 rfl (ix4 b i j ⟨k.val - 256, hk⟩)
        (fun c hc => by match c with | ⟨0, _⟩ => rfl | ⟨1, _⟩ => rfl | ⟨2, _⟩ => rfl | ⟨3, _⟩ => exact absurd rfl hc)
        (by show 256 + (k.val - 256) = k.val; omega)]
      unfold Read.val_main_v13
      rw [Cert.Lib.gather_row4 _ rfl rfl rfl rfl rfl x3 _ (by decide) b i j ⟨k.val - 256, hk⟩]
      refine congrArg x3 (funext fun a => Fin.ext ?_)
      match a with
      | ⟨0, _⟩ =>
        show min (Read.val_main_v12 (F := Ideal) x1 (ix4 b i j (0 : Fin 1))).toInt.toNat (5 - 1)
          = min (x1 (ix3 b i j)).toInt.toNat 4
        rw [edge_idx x1 hr]
      | ⟨1, _⟩ => rfl

/-- The edge indicator: the one-bit comparison "adjacency word is positive", read as a number, is 1 on an edge and 0 off it. -/
private theorem mask_read (x1 : (⟨S8x128x128, .i32⟩ : BufTy).Contents (Elt Ideal)) (b : Fin 8) (i j : Fin 128) (k : Fin 384) :
    Cert.ReferenceIdeal.Read.val_main_v23 (F := Ideal) x1 (ix4 b i j k) = Cert.Msg.mask (x1 (ix3 b i j)) := by
  rw [Read.val_main_v23_apply, Read.val_main_v17_apply, Read.val_main_v16_apply, Read.val_main_v15_apply,
    Read.val_main_v14_apply, Read.val_main_c_3_apply]
  have e : Read.idx_main_v16 (Read.idx_main_v23 (ix4 b i j k)) = ix3 b i j :=
    funext fun a => Fin.ext (by match a with | ⟨0, _⟩ => rfl | ⟨1, _⟩ => rfl | ⟨2, _⟩ => rfl)
  rw [e]
  show (((IntOp.cmpi CmpIPredicate.sgt (x1 (ix3 b i j)) 0#32).toNat : ℝ) : EReal) = _
  unfold Cert.Msg.mask IntOp.cmpi
  show (((BitVec.ofBool ((0#32).slt (x1 (ix3 b i j)))).toNat : ℝ) : EReal) = _
  rw [BitVec.slt]
  have h0 : (0#32 : BitVec 32).toInt = 0 := by decide
  rw [h0]
  by_cases h : 0 < (x1 (ix3 b i j)).toInt
  · rw [if_pos h, decide_eq_true h]; simp
  · rw [if_neg h, decide_eq_false h]; simp

/-- The reference's last stage is the message function of its own node embeddings. -/
theorem ref_is_G (x0 : (⟨S8x128, .i32⟩ : BufTy).Contents (Elt Ideal)) (x1 : (⟨S8x128x128, .i32⟩ : BufTy).Contents (Elt Ideal))
    (x2 : (⟨S16x128, .f32⟩ : BufTy).Contents (Elt Ideal)) (x3 : (⟨S5x128, .f32⟩ : BufTy).Contents (Elt Ideal))
    (x4 : (⟨S768x384, .f32⟩ : BufTy).Contents (Elt Ideal)) (x5 : (⟨S768, .f32⟩ : BufTy).Contents (Elt Ideal))
    (hr : ∀ y : S8x128x128.Idx, 0 ≤ (x1 y).toInt ∧ (x1 y).toInt < 5) :
    Cert.ReferenceIdeal.Read.val_main_v28 (F := Ideal) x0 x1 x2 x3 x4 x5
      = Cert.Msg.Gm (Cert.ReferenceIdeal.Read.val_main_v6 (F := Ideal) x0 x2) x1 x3 x4 x5 := by
  funext y
  obtain ⟨b, i, j, o, rfl⟩ : ∃ (b : Fin 8) (i j : Fin 128) (o : Fin 768), y = ix4 b i j o :=
    ⟨_, _, _, _, ValueIdx.eq_ix4 y⟩
  rw [Cert.Msg.Gm_apply]
  unfold Cert.Msg.msgAt
  rw [Read.val_main_v28_apply, Read.val_main_v25_apply, Read.val_main_v27_apply, Read.val_main_v26_apply]
  -- the bias: broadcast over batch and both nodes, read at the output channel
  have hb : x5 (Read.idx_main_v26 (Read.idx_main_v27 (ix4 b i j o))) = x5 (ix1 o) :=
    congrArg x5 (funext fun a => Fin.ext (by match a with | ⟨0, _⟩ => rfl))
  rw [hb]
  show (∑ k : Fin 384, Read.val_main_v24 (F := Ideal) x0 x1 x2 x3 (Read.lidx_main_v25 (ix4 b i j o) k)
      * x4 (Read.ridx_main_v25 (ix4 b i j o) k)) + x5 (ix1 o) = _
  refine congrArg (· + x5 (ix1 o)) (Finset.sum_congr rfl fun k _ => ?_)
  -- one term of the contraction: (concatenated input × edge indicator) × weight
  have el : Read.lidx_main_v25 (ix4 b i j o) k = ix4 b i j k :=
    funext fun a => Fin.ext (by match a with | ⟨0, _⟩ => rfl | ⟨1, _⟩ => rfl | ⟨2, _⟩ => rfl | ⟨3, _⟩ => rfl)
  have er : Read.ridx_main_v25 (ix4 b i j o) k = ix2 o k :=
    funext fun a => Fin.ext (by match a with | ⟨0, _⟩ => rfl | ⟨1, _⟩ => rfl)
  rw [el, er, Read.val_main_v24_apply, cat_read x0 x1 x2 x3 hr, mask_read]
  rfl

end Cert.ReferenceIdeal.RefValue

end
-- ==== Proof.PreRange.lean ====
/-
  What the precondition says of the adjacency words: every one of them is an edge type, 0 ≤ a < 5.
  The precondition is a conjunction of whole-array tests; its last conjunct is the AND over all positions of
  (0 ≤ a) ∧ (a < 5) with both comparisons signed.
-/
import proofs.«428032_j59949153517801_3_alg».proof.Pre_finite_inputs
import Idealize.ShloMosaic.PureOps.Ideal
import Idealize.ShloMosaic.Lib.ValueIdx
import Idealize.ShloMosaic.Lib.ReduceAll

noncomputable section

namespace Cert.Msg

open Idealize.ShloMosaic Idealize.ShloMosaic.ValueIdx

/-- Where the precondition's function is all ones, every adjacency word is in [0, 5) read signed. -/
theorem adj_range_of_fn [Cert.Pre_finite_inputs.Facts]
    (a0 : IVec Cert.Pre_finite_inputs.S8x128 32) (a1 : IVec Cert.Pre_finite_inputs.S8x128x128 32)
    (a2 : FVec Ideal Cert.Pre_finite_inputs.S16x128 .f32) (a3 : FVec Ideal Cert.Pre_finite_inputs.S5x128 .f32)
    (a4 : FVec Ideal Cert.Pre_finite_inputs.S768x384 .f32) (a5 : FVec Ideal Cert.Pre_finite_inputs.S768 .f32)
    (h : Cert.Pre_finite_inputs.fn (F := Ideal) a0 a1 a2 a3 a4 a5 = fun _ => 1#1)
    (y : Cert.Pre_finite_inputs.S8x128x128.Idx) :
    0 ≤ (a1 y).toInt ∧ (a1 y).toInt < 5 := by
  -- the precondition's one word, with its conjunctions and reductions in view
  have h0 := congrFun h ValueIdx.ix0
  dsimp only [Cert.Pre_finite_inputs.fn, Cert.Pre_finite_inputs.fn_part1] at h0
  -- the last conjunct: the AND over all positions of (0 ≤ a) ∧ (a < 5)
  have h1 := (IntOp.andi_eq_one.1 h0).2
  -- the result of a reduction over all axes has one index, so every position was 1
  haveI : Subsingleton Cert.Pre_finite_inputs.S_.Idx := ⟨fun a b => funext fun d => d.elim0⟩
  have hy := Host.reduce_andi_all _ _ _ _ _ h1 y
  -- at position y: both signed comparisons hold
  obtain ⟨hge, hlt⟩ := IntOp.andi_eq_one.1 hy
  have hge' := IntOp.cmpi_sge.1 hge
  have hlt' := IntOp.cmpi_slt.1 hlt
  -- a broadcast scalar constant reads the constant at every position
  change (0#32 : BitVec 32).toInt ≤ (a1 y).toInt at hge'
  change (a1 y).toInt < (5#32 : BitVec 32).toInt at hlt'
  have e0 : (0#32 : BitVec 32).toInt = 0 := by decide
  have e5 : (5#32 : BitVec 32).toInt = 5 := by decide
  rw [e0] at hge'
  rw [e5] at hlt'
  exact ⟨hge', hlt'⟩

end Cert.Msg

end
-- ==== Proof.lean ====
/-
  The message layer of a graph network: for every batch b, receiving node i, sending node j and output channel o,
      m[b, i, j, o] = ∑ k < 384, (cat[b, i, j, k] · μ[b, i, j]) · W[o, k] + bias[o],
  with cat the concatenation of the two nodes' embeddings and the edge type's embedding, and μ the edge indicator.

  The reference computes it as written: two lookups, a concatenation, the mask, one 384-term product per element.
  The kernel splits the product into its three 128-term thirds — the receiver's term once per tile, the sender's term
  per chunk of 32 senders, the edge term as a one-hot row against the 8-row table (edge table through the third block
  of the weight, zero-padded) — adds them, multiplies by one minus the indicator of class 0, and adds the bias.

  Over the extended reals the two agree wherever every adjacency word is an edge type, 0 ≤ a < 5: there the
  kernel's clamp and the reference's wrap are both the identity, the one-hot row picks the type's row, one minus the
  indicator of class 0 is the edge indicator, and a product whose left factors all carry the same 0/1 factor is the
  sum of its thirds times that factor (at 1 by commutativity and associativity of +, at 0 both sides are 0). No
  finiteness is used. For a negative word in [−4, −1] the two programs differ (the kernel's class is positive while the
  reference's indicator is 0), which is why the range is assumed.

  The frames are the generated ones; the reference's frame is its run with the result dropped.
-/
import proofs.«428032_j59949153517801_3_alg».proof.Defs
import proofs.«428032_j59949153517801_3_alg».proof.Proof.Gen.Kernel
import proofs.«428032_j59949153517801_3_alg».proof.Proof.Gen.Kernel.Skeleton
import proofs.«428032_j59949153517801_3_alg».proof.Proof.Gen.Kernel.Loops
import proofs.«428032_j59949153517801_3_alg».proof.Proof.Gen.Kernel.Launch
import proofs.«428032_j59949153517801_3_alg».proof.Proof.Gen.Kernel.Points
import proofs.«428032_j59949153517801_3_alg».proof.Proof.Gen.Kernel.Frame
import proofs.«428032_j59949153517801_3_alg».proof.Proof.Gen.KernelIdeal
import proofs.«428032_j59949153517801_3_alg».proof.Proof.Gen.KernelIdeal.Skeleton
import proofs.«428032_j59949153517801_3_alg».proof.Proof.Gen.KernelIdeal.Loops
import proofs.«428032_j59949153517801_3_alg».proof.Proof.Gen.KernelIdeal.Launch
import proofs.«428032_j59949153517801_3_alg».proof.Proof.Gen.KernelIdeal.Points
import proofs.«428032_j59949153517801_3_alg».proof.Proof.Gen.KernelIdeal.Frame
import proofs.«428032_j59949153517801_3_alg».proof.Proof.Gen.ReferenceIdeal
import proofs.«428032_j59949153517801_3_alg».proof.Proof.Gen.Pre_finite_inputs
import proofs.«428032_j59949153517801_3_alg».proof.Proof.Gen.KernelIdeal.Value
import proofs.«428032_j59949153517801_3_alg».proof.Proof.Gen.ReferenceIdeal.Run
import proofs.«428032_j59949153517801_3_alg».proof.Proof.Gen.ReferenceIdeal.Read
import proofs.«428032_j59949153517801_3_alg».proof.Proof.KernelIsG
import proofs.«428032_j59949153517801_3_alg».proof.Proof.RefIsG
import proofs.«428032_j59949153517801_3_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition every adjacency word of the kernel's memory is an edge type. -/
theorem adj_range (m : (ℓ : Loc Cert.KernelIdeal.nD Cert.KernelIdeal.τ Cert.KernelIdeal.sig) → Buf (Elt Ideal) ℓ)
    (hpre : Cert.Pre_KernelIdeal m) (c : Dev Cert.KernelIdeal.nD) (y : Cert.KernelIdeal.S8x128x128.Idx) :
    0 ≤ (Cert.KernelIdeal.HostValue.aAdj m c y).toInt ∧ (Cert.KernelIdeal.HostValue.aAdj m c y).toInt < 5 :=
  Cert.Msg.adj_range_of_fn _ _ _ _ _ _ (hpre c) y

/-- The two programs look the node embeddings up by the same operations: one term. -/
theorem hnode_eq (x0 : Cert.KernelIdeal.S8x128.Idx → BitVec 32) (x2 : Cert.KernelIdeal.S16x128.Idx → EReal) :
    Cert.ReferenceIdeal.Read.val_main_v6 (F := Ideal) x0 x2 = Cert.KernelIdeal.HostValue.hnodeK x0 x2 := rfl

/-- Both runs end with the message function of the arguments: the kernel's by its blocks, the reference's by its stages. -/
theorem algebraic : Cert.algebraic_KernelIdeal_ReferenceIdeal := by
  intro m ρ m' ρ' hpre hagree
  refine ⟨fun c => Cert.Msg.Gm
      (Cert.KernelIdeal.HostValue.hnodeK (Cert.KernelIdeal.HostValue.aX m c) (Cert.KernelIdeal.HostValue.aEn m c))
      (Cert.KernelIdeal.HostValue.aAdj m c) (Cert.KernelIdeal.HostValue.aEe m c)
      (Cert.KernelIdeal.HostValue.aW m c) (Cert.KernelIdeal.HostValue.aBias m c), ?_, ?_⟩
  · exact (θ_run Cert.KernelIdeal.defs _ _).mono
      (fun r h c => ⟨(h c).1.trans (Cert.KernelIdeal.KValue.kernel_is_G m c (adj_range m hpre c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [h0, h1, h2, h3, h4, h5, Cert.ReferenceIdeal.Read.val_main_v28_eq,
      Cert.ReferenceIdeal.RefValue.ref_is_G _ _ _ _ _ _ (adj_range m hpre c), hnode_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
